-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temp" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x64 : Shape := ⟨2, ![4096, 64]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) (main_arg2 : IVec S4096x64 32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S4096x64 : Shape := ⟨2, ![4096, 64]⟩
abbrev S_ : Shape := ⟨0, ![]⟩
abbrev S4096 : Shape := ⟨1, ![4096]⟩
abbrev S8192 : Shape := ⟨1, ![8192]⟩
abbrev S8192x256 : Shape := ⟨2, ![8192, 256]⟩
abbrev S8192x8192 : Shape := ⟨2, ![8192, 8192]⟩
abbrev S256x256 : Shape := ⟨2, ![256, 256]⟩
abbrev S8192x1 : Shape := ⟨2, ![8192, 1]⟩
abbrev S8192x64 : Shape := ⟨2, ![8192, 64]⟩
abbrev S8192x128 : Shape := ⟨2, ![8192, 128]⟩
abbrev S8192x128x1 : Shape := ⟨3, ![8192, 128, 1]⟩
abbrev S1 : Shape := ⟨1, ![1]⟩
abbrev S1x1x1 : Shape := ⟨3, ![1, 1, 1]⟩

abbrev nBuf : Space → Nat
  | .hbm => 86
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x64, .i32⟩
  | .hbm, ⟨3, _⟩ => ⟨S4096x256, .f32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S4096, .f32⟩
  | .hbm, ⟨10, _⟩ => ⟨S8192, .f32⟩
  | .hbm, ⟨11, _⟩ => ⟨S8192x256, .f32⟩
  | .hbm, ⟨12, _⟩ => ⟨S8192x8192, .f32⟩
  | .hbm, ⟨13, _⟩ => ⟨S8192, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S8192, .i32⟩
  | .hbm, ⟨21, _⟩ => ⟨S8192, .i32⟩
  | .hbm, ⟨22, _⟩ => ⟨S_, .i32⟩
  | .hbm, ⟨23, _⟩ => ⟨S8192, .i32⟩
  | .hbm, ⟨24, _⟩ => ⟨S8192, .i1⟩
  | .hbm, ⟨25, _⟩ => ⟨S_, .i32⟩
  | .hbm, ⟨26, _⟩ => ⟨S8192, .i32⟩
  | .hbm, ⟨27, _⟩ => ⟨S8192, .i1⟩
  | .hbm, ⟨28, _⟩ => ⟨S_, .i32⟩
  | .hbm, ⟨29, _⟩ => ⟨S_, .i1⟩
  | .hbm, ⟨30, _⟩ => ⟨S8192, .i1⟩
  | .hbm, ⟨31, _⟩ => ⟨S8192, .i1⟩
  | .hbm, ⟨32, _⟩ => ⟨S8192, .i1⟩
  | .hbm, ⟨33, _⟩ => ⟨S8192, .i32⟩
  | .hbm, ⟨34, _⟩ => ⟨S8192, .i32⟩
  | .hbm, ⟨35, _⟩ => ⟨S8192, .i32⟩
  | .hbm, ⟨36, _⟩ => ⟨S_, .i32⟩
  | .hbm, ⟨37, _⟩ => ⟨S8192, .i32⟩
  | .hbm, ⟨38, _⟩ => ⟨S8192, .i1⟩
  | .hbm, ⟨39, _⟩ => ⟨S_, .i32⟩
  | .hbm, ⟨40, _⟩ => ⟨S8192, .i32⟩
  | .hbm, ⟨41, _⟩ => ⟨S8192, .i32⟩
  | .hbm, ⟨42, _⟩ => ⟨S8192, .i32⟩
  | .hbm, ⟨43, _⟩ => ⟨S8192x1, .i32⟩
  | .hbm, ⟨44, _⟩ => ⟨S8192x64, .i32⟩
  | .hbm, ⟨45, _⟩ => ⟨S8192x1, .i32⟩
  | .hbm, ⟨46, _⟩ => ⟨S8192x64, .i32⟩
  | .hbm, ⟨47, _⟩ => ⟨S8192x64, .i1⟩
  | .hbm, ⟨48, _⟩ => ⟨S8192x64, .i32⟩
  | .hbm, ⟨49, _⟩ => ⟨S8192x64, .i32⟩
  | .hbm, ⟨50, _⟩ => ⟨S_, .i32⟩
  | .hbm, ⟨51, _⟩ => ⟨S8192x64, .i32⟩
  | .hbm, ⟨52, _⟩ => ⟨S8192x64, .i32⟩
  | .hbm, ⟨53, _⟩ => ⟨S8192x128, .i32⟩
  | .hbm, ⟨54, _⟩ => ⟨S_, .i32⟩
  | .hbm, ⟨55, _⟩ => ⟨S8192x128, .i32⟩
  | .hbm, ⟨56, _⟩ => ⟨S8192x128, .i1⟩
  | .hbm, ⟨57, _⟩ => ⟨S_, .i32⟩
  | .hbm, ⟨58, _⟩ => ⟨S8192x128, .i32⟩
  | .hbm, ⟨59, _⟩ => ⟨S8192x128, .i32⟩
  | .hbm, ⟨60, _⟩ => ⟨S8192x128, .i32⟩
  | .hbm, ⟨61, _⟩ => ⟨S8192x128x1, .i32⟩
  | .hbm, ⟨62, _⟩ => ⟨S1, .i32⟩
  | .hbm, ⟨63, _⟩ => ⟨S_, .i32⟩
  | .hbm, ⟨64, _⟩ => ⟨S8192x128x1, .i32⟩
  | .hbm, ⟨65, _⟩ => ⟨S8192x128x1, .i1⟩
  | .hbm, ⟨66, _⟩ => ⟨S1x1x1, .i32⟩
  | .hbm, ⟨67, _⟩ => ⟨S8192x128x1, .i32⟩
  | .hbm, ⟨68, _⟩ => ⟨S8192x128x1, .i1⟩
  | .hbm, ⟨69, _⟩ => ⟨S8192x128x1, .i1⟩
  | .hbm, ⟨70, _⟩ => ⟨S_, .i1⟩
  | .hbm, ⟨71, _⟩ => ⟨S8192x128, .i1⟩
  | .hbm, ⟨72, _⟩ => ⟨S8192x128, .f32⟩
  | .hbm, ⟨73, _⟩ => ⟨S_, .f32⟩
  | .hbm, ⟨74, _⟩ => ⟨S8192x128, .f32⟩
  | .hbm, ⟨75, _⟩ => ⟨S8192x128, .f32⟩
  | .hbm, ⟨76, _⟩ => ⟨S_, .f32⟩
  | .hbm, ⟨77, _⟩ => ⟨S8192, .f32⟩
  | .hbm, ⟨78, _⟩ => ⟨S8192, .f32⟩
  | .hbm, ⟨79, _⟩ => ⟨S8192, .f32⟩
  | .hbm, ⟨80, _⟩ => ⟨S8192, .f32⟩
  | .hbm, ⟨81, _⟩ => ⟨S8192, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .local _ .vmem, ⟨0, _⟩ => ⟨S8192x256, .f32⟩
  | .local _ .vmem, ⟨1, _⟩ => ⟨S256x256, .f32⟩
  | .local _ .vmem, ⟨2, _⟩ => ⟨S256x256, .f32⟩
  | .local _ .vmem, ⟨3, _⟩ => ⟨S8192x256, .f32⟩
  | .local _ .vmem, ⟨4, _⟩ => ⟨S8192x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_1 : Ref sig .tc := ⟨.hbm, 22, rfl⟩
abbrev main_call0_v5 : Ref sig .tc := ⟨.hbm, 23, rfl⟩
abbrev main_call0_v6 : Ref sig .tc := ⟨.hbm, 24, rfl⟩
abbrev main_call0_c_2 : Ref sig .tc := ⟨.hbm, 25, rfl⟩
abbrev main_call0_v7 : Ref sig .tc := ⟨.hbm, 26, rfl⟩
abbrev main_call0_v8 : Ref sig .tc := ⟨.hbm, 27, rfl⟩
abbrev main_call0_c_3 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_v9 : Ref sig .tc := ⟨.hbm, 35, rfl⟩
abbrev main_c_1 : Ref sig .tc := ⟨.hbm, 36, rfl⟩
abbrev main_v10 : Ref sig .tc := ⟨.hbm, 37, rfl⟩
abbrev main_v11 : Ref sig .tc := ⟨.hbm, 38, rfl⟩
abbrev main_c_2 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_c_3 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_call1_c : Ref sig .tc := ⟨.hbm, 54, rfl⟩
abbrev main_call1_v0 : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_c_1 : Ref sig .tc := ⟨.hbm, 62, rfl⟩
abbrev main_call1_c_2 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_3 : Ref sig .tc := ⟨.hbm, 70, rfl⟩
abbrev main_call1_v12 : Ref sig .tc := ⟨.hbm, 71, rfl⟩
abbrev main_call1_v13 : Ref sig .tc := ⟨.hbm, 72, rfl⟩
abbrev main_call1_cst : Ref sig .tc := ⟨.hbm, 73, rfl⟩
abbrev main_call1_v14 : Ref sig .tc := ⟨.hbm, 74, rfl⟩
abbrev main_v25 : Ref sig .tc := ⟨.hbm, 75, rfl⟩
abbrev main_cst_4 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_cst_5 : Ref sig .tc := ⟨.hbm, 82, rfl⟩
abbrev main_v31 : Ref sig .tc := ⟨.hbm, 83, rfl⟩
abbrev main_cst_6 : Ref sig .tc := ⟨.hbm, 84, rfl⟩
abbrev main_v32 : Ref sig .tc := ⟨.hbm, 85, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8192x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S4096x256_S4096_d1 : S4096x256.ReducesTo [1] S4096
  h_S_ : 0 < S_.numel
  bcast_S_S4096 : S_.BroadcastsInDim S4096 (![] : Fin 0 → Fin S4096.rank)
  concatenates_S4096_S4096_S8192_d0 : Shape.Concatenates [S4096, S4096] S8192 0
  concatenates_S4096x256_S4096x256_S8192x256_d0 : Shape.Concatenates [S4096x256, S4096x256] S8192x256 0
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  transposes_S256x256_p1_0_S256x256 : S256x256.Transposes [1, 0] S256x256
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  natLt_1_32 : 1 < 32
  bcast_S_S8192x64 : S_.BroadcastsInDim S8192x64 (![] : Fin 0 → Fin S8192x64.rank)
  concatenates_S8192x64_S8192x64_S8192x128_d1 : Shape.Concatenates [S8192x64, S8192x64] S8192x128 1
  bcast_S_S8192x128 : S_.BroadcastsInDim S8192x128 (![] : Fin 0 → Fin S8192x128.rank)
  shapeCasts_S8192x128_S8192x128x1 : S8192x128.ShapeCasts S8192x128x1
  bcast_S_S8192x128x1 : S_.BroadcastsInDim S8192x128x1 (![] : Fin 0 → Fin S8192x128x1.rank)
  bcast_S1_S1x1x1_2 : S1.BroadcastsInDim S1x1x1 (![2] : Fin 1 → Fin S1x1x1.rank)
  bcast_S1x1x1_S8192x128x1_0_1_2 : S1x1x1.BroadcastsInDim S8192x128x1 (![0, 1, 2] : Fin 3 → Fin S8192x128x1.rank)
  reducesTo_S8192x128x1_S8192x128_d2 : S8192x128x1.ReducesTo [2] S8192x128
  reducesTo_S8192x128_S8192_d1 : S8192x128.ReducesTo [1] S8192
  reducesTo_S8192_S_d0 : S8192.ReducesTo [0] S_
  dot_S8192x256_S256x256_S8192x256_1_0_0_1_n_n_wf : DotDims.WF S8192x256 S256x256 S8192x256 [1] [0] [0] [1] [] []
  gather_S4096x64_S8192x1_S8192x64_1_0_n_n_0_1_164_wf : GatherDims.WF S4096x64 S8192x1 S8192x64 [1] [0] [] [0] [] 1 ![1, 64]
  gather_S8192x8192_S8192x128x1_S8192x128_n_1_0_0_1_2_11_wf : GatherDims.WF S8192x8192 S8192x128x1 S8192x128 [] [1] [0] [1] [0] 2 ![1, 1]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S8192x256.size a
  hwx0_0 : ∀ i : grid0.Coords, EltTy.bits .f32 = 32 ∨ (Rect.block (s := S8192x256) S8192x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S8192x256.size a
  hwx0_1 : ∀ i : grid0.Coords, EltTy.bits .f32 = 32 ∨ (Rect.block (s := S8192x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x256.size a ≤ S8192x8192.size a
  hwx0_2 : ∀ i : grid0.Coords, EltTy.bits .f32 = 32 ∨ (Rect.block (s := S8192x8192) S8192x256.size (cc0_transform_2 i) (hinb0_2 i)).WholeWords (EltTy.packing .f32)

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def gather_S4096x64_S8192x1_S8192x64_1_0_n_n_0_1_164 : GatherDims S4096x64 S8192x1 S8192x64 where
  offsetDims := [1]
  collapsedSliceDims := [0]
  operandBatchingDims := []
  startIndicesBatchingDims := []
  startIndexMap := [0]
  indexVectorDim := 1
  sliceSizes := ![1, 64]
  wf := gather_S4096x64_S8192x1_S8192x64_1_0_n_n_0_1_164_wf
def gather_S8192x8192_S8192x128x1_S8192x128_n_1_0_0_1_2_11 : GatherDims S8192x8192 S8192x128x1 S8192x128 where
  offsetDims := []
  collapsedSliceDims := [1]
  operandBatchingDims := [0]
  startIndicesBatchingDims := [0]
  startIndexMap := [1]
  indexVectorDim := 2
  sliceSizes := ![1, 1]
  wf := gather_S8192x8192_S8192x128x1_S8192x128_n_1_0_0_1_2_11_wf

abbrev win0_0 : Pipeline.Window sig grid0 :=
  Pipeline.Window.ofSpec (Memref.whole main_v6) S8192x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v6) S256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S8192x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x256 : Shape := ⟨2, ![4096, 256]⟩
abbrev S4096x64 : Shape := ⟨2, ![4096, 64]⟩
abbrev S_ : Shape := ⟨0, ![]⟩
abbrev S4096 : Shape := ⟨1, ![4096]⟩
abbrev S8192 : Shape := ⟨1, ![8192]⟩
abbrev S8192x256 : Shape := ⟨2, ![8192, 256]⟩
abbrev S256x8192 : Shape := ⟨2, ![256, 8192]⟩
abbrev S8192x8192 : Shape := ⟨2, ![8192, 8192]⟩
abbrev S8192x1 : Shape := ⟨2, ![8192, 1]⟩
abbrev S8192x64 : Shape := ⟨2, ![8192, 64]⟩
abbrev S8192x128 : Shape := ⟨2, ![8192, 128]⟩
abbrev S8192x128x1 : Shape := ⟨3, ![8192, 128, 1]⟩
abbrev S1 : Shape := ⟨1, ![1]⟩
abbrev S1x1x1 : Shape := ⟨3, ![1, 1, 1]⟩

abbrev nBuf : Space → Nat
  | .hbm => 91
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x64, .i32⟩
  | .hbm, ⟨3, _⟩ => ⟨S4096x256, .f32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S4096, .f32⟩
  | .hbm, ⟨10, _⟩ => ⟨S8192, .f32⟩
  | .hbm, ⟨11, _⟩ => ⟨S8192x256, .f32⟩
  | .hbm, ⟨12, _⟩ => ⟨S256x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S8192, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S8192, .i32⟩
  | .hbm, ⟨26, _⟩ => ⟨S8192, .i32⟩
  | .hbm, ⟨27, _⟩ => ⟨S_, .i32⟩
  | .hbm, ⟨28, _⟩ => ⟨S8192, .i32⟩
  | .hbm, ⟨29, _⟩ => ⟨S8192, .i1⟩
  | .hbm, ⟨30, _⟩ => ⟨S_, .i32⟩
  | .hbm, ⟨31, _⟩ => ⟨S8192, .i32⟩
  | .hbm, ⟨32, _⟩ => ⟨S8192, .i1⟩
  | .hbm, ⟨33, _⟩ => ⟨S_, .i32⟩
  | .hbm, ⟨34, _⟩ => ⟨S_, .i1⟩
  | .hbm, ⟨35, _⟩ => ⟨S8192, .i1⟩
  | .hbm, ⟨36, _⟩ => ⟨S8192, .i1⟩
  | .hbm, ⟨37, _⟩ => ⟨S8192, .i1⟩
  | .hbm, ⟨38, _⟩ => ⟨S8192, .i32⟩
  | .hbm, ⟨39, _⟩ => ⟨S8192, .i32⟩
  | .hbm, ⟨40, _⟩ => ⟨S8192, .i32⟩
  | .hbm, ⟨41, _⟩ => ⟨S_, .i32⟩
  | .hbm, ⟨42, _⟩ => ⟨S8192, .i32⟩
  | .hbm, ⟨43, _⟩ => ⟨S8192, .i1⟩
  | .hbm, ⟨44, _⟩ => ⟨S_, .i32⟩
  | .hbm, ⟨45, _⟩ => ⟨S8192, .i32⟩
  | .hbm, ⟨46, _⟩ => ⟨S8192, .i32⟩
  | .hbm, ⟨47, _⟩ => ⟨S8192, .i32⟩
  | .hbm, ⟨48, _⟩ => ⟨S8192x1, .i32⟩
  | .hbm, ⟨49, _⟩ => ⟨S8192x64, .i32⟩
  | .hbm, ⟨50, _⟩ => ⟨S8192x1, .i32⟩
  | .hbm, ⟨51, _⟩ => ⟨S8192x64, .i32⟩
  | .hbm, ⟨52, _⟩ => ⟨S8192x64, .i1⟩
  | .hbm, ⟨53, _⟩ => ⟨S8192x64, .i32⟩
  | .hbm, ⟨54, _⟩ => ⟨S8192x64, .i32⟩
  | .hbm, ⟨55, _⟩ => ⟨S_, .i32⟩
  | .hbm, ⟨56, _⟩ => ⟨S8192x64, .i32⟩
  | .hbm, ⟨57, _⟩ => ⟨S8192x64, .i32⟩
  | .hbm, ⟨58, _⟩ => ⟨S8192x128, .i32⟩
  | .hbm, ⟨59, _⟩ => ⟨S_, .i32⟩
  | .hbm, ⟨60, _⟩ => ⟨S8192x128, .i32⟩
  | .hbm, ⟨61, _⟩ => ⟨S8192x128, .i1⟩
  | .hbm, ⟨62, _⟩ => ⟨S_, .i32⟩
  | .hbm, ⟨63, _⟩ => ⟨S8192x128, .i32⟩
  | .hbm, ⟨64, _⟩ => ⟨S8192x128, .i32⟩
  | .hbm, ⟨65, _⟩ => ⟨S8192x128, .i32⟩
  | .hbm, ⟨66, _⟩ => ⟨S8192x128x1, .i32⟩
  | .hbm, ⟨67, _⟩ => ⟨S1, .i32⟩
  | .hbm, ⟨68, _⟩ => ⟨S_, .i32⟩
  | .hbm, ⟨69, _⟩ => ⟨S8192x128x1, .i32⟩
  | .hbm, ⟨70, _⟩ => ⟨S8192x128x1, .i1⟩
  | .hbm, ⟨71, _⟩ => ⟨S1x1x1, .i32⟩
  | .hbm, ⟨72, _⟩ => ⟨S8192x128x1, .i32⟩
  | .hbm, ⟨73, _⟩ => ⟨S8192x128x1, .i1⟩
  | .hbm, ⟨74, _⟩ => ⟨S8192x128x1, .i1⟩
  | .hbm, ⟨75, _⟩ => ⟨S_, .i1⟩
  | .hbm, ⟨76, _⟩ => ⟨S8192x128, .i1⟩
  | .hbm, ⟨77, _⟩ => ⟨S8192x128, .f32⟩
  | .hbm, ⟨78, _⟩ => ⟨S_, .f32⟩
  | .hbm, ⟨79, _⟩ => ⟨S8192x128, .f32⟩
  | .hbm, ⟨80, _⟩ => ⟨S8192x128, .f32⟩
  | .hbm, ⟨81, _⟩ => ⟨S_, .f32⟩
  | .hbm, ⟨82, _⟩ => ⟨S8192, .f32⟩
  | .hbm, ⟨83, _⟩ => ⟨S8192, .f32⟩
  | .hbm, ⟨84, _⟩ => ⟨S8192, .f32⟩
  | .hbm, ⟨85, _⟩ => ⟨S8192, .f32⟩
  | .hbm, ⟨86, _⟩ => ⟨S8192, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c_1 : Ref sig .tc := ⟨.hbm, 27, rfl⟩
abbrev main_call0_v5 : Ref sig .tc := ⟨.hbm, 28, rfl⟩
abbrev main_call0_v6 : Ref sig .tc := ⟨.hbm, 29, rfl⟩
abbrev main_call0_c_2 : Ref sig .tc := ⟨.hbm, 30, rfl⟩
abbrev main_call0_v7 : Ref sig .tc := ⟨.hbm, 31, rfl⟩
abbrev main_call0_v8 : Ref sig .tc := ⟨.hbm, 32, rfl⟩
abbrev main_call0_c_3 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_v13 : Ref sig .tc := ⟨.hbm, 40, rfl⟩
abbrev main_c_2 : Ref sig .tc := ⟨.hbm, 41, rfl⟩
abbrev main_v14 : Ref sig .tc := ⟨.hbm, 42, rfl⟩
abbrev main_v15 : Ref sig .tc := ⟨.hbm, 43, rfl⟩
abbrev main_c_3 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_c_4 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_call1_c : Ref sig .tc := ⟨.hbm, 59, rfl⟩
abbrev main_call1_v0 : Ref sig .tc := ⟨.hbm, 60, rfl⟩
abbrev main_call1_v1 : Ref sig .tc := ⟨.hbm, 61, rfl⟩
abbrev main_call1_c_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_c_1 : Ref sig .tc := ⟨.hbm, 67, rfl⟩
abbrev main_call1_c_2 : Ref sig .tc := ⟨.hbm, 68, rfl⟩
abbrev main_call1_v6 : Ref sig .tc := ⟨.hbm, 69, rfl⟩
abbrev main_call1_v7 : Ref sig .tc := ⟨.hbm, 70, rfl⟩
abbrev main_call1_v8 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_c_3 : Ref sig .tc := ⟨.hbm, 75, rfl⟩
abbrev main_call1_v12 : Ref sig .tc := ⟨.hbm, 76, rfl⟩
abbrev main_call1_v13 : Ref sig .tc := ⟨.hbm, 77, rfl⟩
abbrev main_call1_cst : Ref sig .tc := ⟨.hbm, 78, rfl⟩
abbrev main_call1_v14 : Ref sig .tc := ⟨.hbm, 79, rfl⟩
abbrev main_v29 : Ref sig .tc := ⟨.hbm, 80, rfl⟩
abbrev main_cst_5 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_cst_6 : Ref sig .tc := ⟨.hbm, 87, rfl⟩
abbrev main_v35 : Ref sig .tc := ⟨.hbm, 88, rfl⟩
abbrev main_cst_7 : Ref sig .tc := ⟨.hbm, 89, rfl⟩
abbrev main_v36 : Ref sig .tc := ⟨.hbm, 90, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S_S4096 : S_.BroadcastsInDim S4096 (![] : Fin 0 → Fin S4096.rank)
  concatenates_S4096_S4096_S8192_d0 : Shape.Concatenates [S4096, S4096] S8192 0
  concatenates_S4096x256_S4096x256_S8192x256_d0 : Shape.Concatenates [S4096x256, S4096x256] S8192x256 0
  transposes_S8192x256_S256x8192_1_0 : S8192x256.Transposes [1, 0] S256x8192
  bcast_S_S8192x8192 : S_.BroadcastsInDim S8192x8192 (![] : Fin 0 → Fin S8192x8192.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  natLt_1_32 : 1 < 32
  bcast_S_S8192x64 : S_.BroadcastsInDim S8192x64 (![] : Fin 0 → Fin S8192x64.rank)
  concatenates_S8192x64_S8192x64_S8192x128_d1 : Shape.Concatenates [S8192x64, S8192x64] S8192x128 1
  bcast_S_S8192x128 : S_.BroadcastsInDim S8192x128 (![] : Fin 0 → Fin S8192x128.rank)
  shapeCasts_S8192x128_S8192x128x1 : S8192x128.ShapeCasts S8192x128x1
  bcast_S_S8192x128x1 : S_.BroadcastsInDim S8192x128x1 (![] : Fin 0 → Fin S8192x128x1.rank)
  bcast_S1_S1x1x1_2 : S1.BroadcastsInDim S1x1x1 (![2] : Fin 1 → Fin S1x1x1.rank)
  bcast_S1x1x1_S8192x128x1_0_1_2 : S1x1x1.BroadcastsInDim S8192x128x1 (![0, 1, 2] : Fin 3 → Fin S8192x128x1.rank)
  reducesTo_S8192x128x1_S8192x128_d2 : S8192x128x1.ReducesTo [2] S8192x128
  reducesTo_S8192x128_S8192_d1 : S8192x128.ReducesTo [1] S8192
  reducesTo_S8192_S_d0 : S8192.ReducesTo [0] S_
  dot_S8192x256_S256x8192_S8192x8192_1_0_0_1_n_n_wf : DotDims.WF S8192x256 S256x8192 S8192x8192 [1] [0] [0] [1] [] []
  gather_S4096x64_S8192x1_S8192x64_1_0_n_n_0_1_164_wf : GatherDims.WF S4096x64 S8192x1 S8192x64 [1] [0] [] [0] [] 1 ![1, 64]
  gather_S8192x8192_S8192x128x1_S8192x128_n_1_0_0_1_2_11_wf : GatherDims.WF S8192x8192 S8192x128x1 S8192x128 [] [1] [0] [1] [0] 2 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S4096x64_S8192x1_S8192x64_1_0_n_n_0_1_164 : GatherDims S4096x64 S8192x1 S8192x64 where
  offsetDims := [1]
  collapsedSliceDims := [0]
  operandBatchingDims := []
  startIndicesBatchingDims := []
  startIndexMap := [0]
  indexVectorDim := 1
  sliceSizes := ![1, 64]
  wf := gather_S4096x64_S8192x1_S8192x64_1_0_n_n_0_1_164_wf
def gather_S8192x8192_S8192x128x1_S8192x128_n_1_0_0_1_2_11 : GatherDims S8192x8192 S8192x128x1 S8192x128 where
  offsetDims := []
  collapsedSliceDims := [1]
  operandBatchingDims := [0]
  startIndicesBatchingDims := [0]
  startIndexMap := [1]
  indexVectorDim := 2
  sliceSizes := ![1, 1]
  wf := gather_S8192x8192_S8192x128x1_S8192x128_n_1_0_0_1_2_11_wf

class Facts : Prop extends Facts₀ where

variable [Facts]
-- ==== Proof.KI.Body.lean ====
/-
  The kernel region's proof data and body obligation, for any float family.

  The pallas_call sweeps 32 grid points. At point t the body reads the resident operand (all 8192 rows of
  the concatenated features, fetched once), reads the t-th tile of 256 rows of the same array, and stores
  exp (A · Bᵀ · inv_temp) into the t-th column tile [8192, 256] of the result. Nothing is carried between
  points; the body keeps nothing of its own.
-/
import proofs.«410178_j10892037063160_1_alg».proof.Proof.Gen.KernelIdeal.Launch
import proofs.«410178_j10892037063160_1_alg».proof.Proof.Gen.KernelIdeal.Skeleton
import proofs.«410178_j10892037063160_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core c's buffer contents when the region is entered: the nine host operations before it have run. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole rectangle of the result tile's staging buffer. -/
abbrev rOut : Rect S8192x256 := Rect.unit (s := S8192x256) ![0, 0] S8192x256.size inb_S8192x256_S8192x256_0_0
/-- The whole rectangle of the key tile's staging buffer. -/
abbrev rKey : Rect S256x256 := Rect.unit (s := S256x256) ![0, 0] S256x256.size inb_S256x256_S256x256_0_0

/-- What the body leaves in the result tile's buffer, from the two operands' blocks: its one store. -/
def out0_2 (x0 : Vec F S8192x256 .f32) (x1 : Vec F S256x256 .f32) : Vec F S8192x256 .f32 :=
  View.canon [⟨rOut, k0_pay1 (View.ld x0 rOut) (View.ld x1 rKey)⟩]

/-- The proof data of the pipeline on core c: the arrays as the region finds them; after the body at point t each
    operand's buffer at its block and the result's at the body's store; the two read windows of the one
    concatenated array each hold half of its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-! ## What the body finds in the operands' buffers -/

/-- The resident operand's staging buffer holds its block at every point, fetched there or not: the window is an
    input, never idle and uncut, and the body leaves its block in place; where it is not fetched its block index
    has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The key tile's staging buffer holds its block at every point: the same of the second read window. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_0 (c : Dev nD) (t : Fin cfg0.N) (d) : (dats m 0 c).before 0 t d = iblk m c 0 t :=
  before0_0_of m (dats m 0 c) (A_eq m c 0) (after0_0 m c) t d

theorem before0_1 (c : Dev nD) (t : Fin cfg0.N) (d) : (dats m 0 c).before 1 t d = iblk m c 1 t :=
  before0_1_of m (dats m 0 c) (A_eq m c 1) (after0_1 m c) t d

/-! ## The body's triple -/

/-- The body's one store is through the whole rectangle of the result tile's buffer, so it covers it. -/
theorem cover0_2 (p0 : Vec F S8192x256 .f32) (y : S8192x256.Idx) :
    ∃ pc ∈ ([⟨rOut, p0⟩] : List (View.Piece (Elt F) S8192x256 .f32)), y ∈ pc.1.set :=
  View.cover_of_tiled [⟨rOut, p0⟩] S8192x256.size (by rfl) y

set_option maxHeartbeats 1000000 in
/-- The body on whole staging memrefs, the operands' at read contents x0 and x1 and the result's at anything,
    runs to the continuation holding the operands' as they were and the result's at the store's payload laid over
    the whole buffer: three loads (the third's value unused) and one covering store. -/
theorem sound_kernel (c : Dev nD) (E : Set ℕ) (i : grid0.Coords)
    (arg1 : Memref sig .tc .vmem S8192x256 .f32) (harg1 : arg1.IsWhole)
    (arg2 : Memref sig .tc .vmem S256x256 .f32) (harg2 : arg2.IsWhole)
    (arg3 : Memref sig .tc .vmem S8192x256 .f32) (harg3 : arg3.IsWhole)
    (x0 : Vec F S8192x256 .f32) (x1 : Vec F S256x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__neg_kernel i arg1 harg1 arg2 harg2 arg3 harg3) K := by
  simp only [cc0__neg_kernel_eq_skeleton]; unfold cc0__neg_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the operands' memrefs hold their blocks, so the body's triple applies; the invariant
    and the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Run.lean ====
/-
  The kernel program's run: the host operations before the region, the region, the host operations after it.
-/
import proofs.«410178_j10892037063160_1_alg».proof.Proof.KI.Body
import Idealize.ShloMosaic.Lib.Pipeline.Regions

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The host operations after the region, in order. -/
abbrev tailOps : List (HloOp τ sig (Elt F)) := hostOps1 ++ (hostOps1_1 ++ (hostOps1_2 ++ (hostOps1_3 ++ hostOps1_4)))

/-- Core c's buffer contents when the region is left: the result array at what the write-backs made of it, every
    other buffer as the region found it. -/
def V1 (c : Dev nD) : Valuation τ sig (Elt F) :=
  Function.update (V0 m c) (Proc.devRef .tc main_v7) ((dats m 0 c).arrAt 2 cfg0.N)

/-- and when @main returns. -/
def Vend (c : Dev nD) : Valuation τ sig (Elt F) := StableHlo.after tailOps (V1 m c)

/-- The distinct arrays behind the three windows: the concatenated features and the result. -/
theorem arrRefs_eq : (Finset.univ.image (Pipeline.arrRef spec0) : Finset (Ref sig .tc)) = [main_v6, main_v7].toFinset := by decide

/-- The buffers behind the windows' arrays, one by one. -/
theorem arrBufs_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_v6) ↦{fullShare} W main_v6) ∗ (((c.tc : Thread nD τ).loc main_v7) ↦{fullShare} W main_v7)) := by
  unfold Pipeline.arrBufs
  rw [bigSep_eq_bigSepL_of_eq [main_v6, main_v7] arrRefs_eq (by decide)]
  rfl

theorem share_0 (c : Dev nD) : (dats m 0 c).share 0 = fullShare.left := rfl
theorem share_1 (c : Dev nD) : (dats m 0 c).share 1 = fullShare.right := rfl
theorem share_2 (c : Dev nD) : (dats m 0 c).share 2 = fullShare := rfl

/-- The pipeline's arrays, window by window: the two read windows hold the halves of the one concatenated array, the
    written window the whole result. -/
theorem arrays_eq3 (c : Dev nD) (Fw : (w : Fin cfg0.W) → Buf (Elt F) ((cfg0.win w).arr.view.loc (c.tc : Thread nD τ))) :
    (dats m 0 c).arrays Fw = iprop((((c.tc : Thread nD τ).loc main_v6) ↦{fullShare.left} Fw 0) ∗ (((c.tc : Thread nD τ).loc main_v6) ↦{fullShare.right} Fw 1)
      ∗ (((c.tc : Thread nD τ).loc main_v7) ↦{fullShare} Fw 2)) := by
  unfold Dat.arrays
  rw [bigSep_W0]
  rw [(arr_whole0 0).set_eq_univ, (arr_whole0 2).set_eq_univ, share_0, share_1, share_2]

/-- The region's entry: of a core's unscoped buffers, the concatenated array split between the two windows that read
    it and the result array whole make the pipeline's arrays; the other buffers stay aside. -/
theorem hentry_split (c : Dev nD) :
    (unscopedBufs (Ix := Unit) (Name := ℕ) (U := UR sig nD τ) (Lvl := ℕ) c (V m c) : sProp 𝕄)
      ⊢ iprop((dats m 0 c).arrays ((dats m 0 c).arrAt · 0) ∗ Pipeline.unscopedRest spec0 c (V m c)) := by
  rw [Pipeline.unscopedBufs_split₀ cfgs 0 winFacts₀0.arr_unscoped c (V m c), arrBufs_eq, arrays_eq3]
  iintro ⟨⟨H6, H7⟩, Hr⟩
  ihave H6' := (pointsTo_share (PosShare.mem_left_op_right fullShare)).1 $$ H6
  icases H6' with ⟨H6l, H6r⟩
  isplitr [Hr]
  · isplitl [H6l]; · iexact H6l
    isplitl [H6r]; · iexact H6r
    iexact H7
  · iexact Hr

/-- The TensorCore's unscoped references, as device buffers: the set the host operations run within. -/
abbrev ucRefs : Finset (DevRef τ sig) := Pipeline.ucRefs τ sig

/-- The buffer contents when the region is left, read at a TensorCore reference. -/
abbrev V1r (c : Dev nD) (b : Ref sig .tc) : Buf (Elt F) ((c.tc : Thread nD τ).loc b) := V1 m c (Proc.devRef .tc b)

/-- The result array is at what the write-backs made of it; -/
theorem V1r_v7 (c : Dev nD) : V1r m c main_v7 = (dats m 0 c).arrAt 2 cfg0.N := by
  show V1 m c (Proc.devRef .tc main_v7) = _
  unfold V1; exact Function.update_self ..

/-- every other buffer is as the region found it. -/
theorem V1r_of_ne (c : Dev nD) (b : Ref sig .tc) (hb : b ≠ main_v7) : V1r m c b = V m c b := by
  show V1 m c (Proc.devRef .tc b) = V0 m c (Proc.devRef .tc b)
  unfold V1; exact Function.update_of_ne (StableHlo.devRef_ne_of_ne hb) _ _

theorem unscopedRest_V1 (c : Dev nD) :
    (Pipeline.unscopedRest (Ix := Unit) (Name := ℕ) (U := UR sig nD τ) (Lvl := ℕ) spec0 c (V1r m c) : sProp 𝕄) = Pipeline.unscopedRest spec0 c (V m c) := by
  unfold Pipeline.unscopedRest
  refine bigSep_congr fun b hb => ?_
  rw [V1r_of_ne m c b ?_]
  rintro rfl
  exact (Finset.mem_sdiff.mp hb).2 (Finset.mem_image.mpr ⟨2, Finset.mem_univ _, rfl⟩)

/-- The region's exit: the two halves of the concatenated array rejoined, the result array at what the write-backs
    made of it and the buffers kept aside are the core's unscoped buffers at the contents the region leaves. -/
theorem hexit_join (c : Dev nD) :
    iprop((dats m 0 c).arrays ((dats m 0 c).arrAt · cfg0.N) ∗ Pipeline.unscopedRest spec0 c (V m c))
      ⊢ (unscopedBufs (Ix := Unit) (Name := ℕ) (U := UR sig nD τ) (Lvl := ℕ) c (V1r m c) : sProp 𝕄) := by
  rw [Pipeline.unscopedBufs_split₀ cfgs 0 winFacts₀0.arr_unscoped c (V1r m c), arrBufs_eq, arrays_eq3, unscopedRest_V1,
    V1r_v7, V1r_of_ne m c main_v6 (by decide), (dats m 0 c).arrAt_in 0 rfl, (dats m 0 c).arrAt_in 1 rfl]
  iintro ⟨⟨H6l, H6r, H7⟩, Hr⟩
  isplitr [Hr]
  · isplitl [H6l H6r]
    · iapply (pointsTo_share (PosShare.mem_left_op_right fullShare)).2
      isplitl [H6l]; · iexact H6l
      iexact H6r
    · iexact H7
  · iexact Hr

/-- The pipeline library's algebra is the whole of the certificate's. -/
abbrev EP : Emb (UR sig nD τ) (MT nD τ sig Unit (Elt F) ℕ (UR sig nD τ) ℕ) := emb₁

/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm
abbrev 𝒱₀ : Variants := Variants.none

/-- What rides beside the buffers through the host operations: the generator register at some state, and that the
    core owes nothing. -/
abbrev R (c : Dev nD) : sProp 𝕄 :=
  iprop((∃ r, prngReg c r) ∗ ∃ W, owes (c.tc : Thread nD τ) (0 : CellTallies nD τ sig Unit) W)

/-- A line of host operations names unscoped TensorCore buffers only. -/
theorem ops_sub (ops : List (HloOp τ sig (Elt F))) (h : ops.Forall fun op => op.bufs ⊆ StableHlo.tcRefs τ sig) :
    ∀ op ∈ ops, op.bufs ⊆ ucRefs := fun op hop =>
  Pipeline.sub_ucRefs op ((List.forall_iff_forall_mem.mp h) op hop)

theorem fresh0 : ∀ op ∈ (hostOps0 (F := F)), op.fresh = ∅ := by
  intro _ h; (repeat (cases h with | head => rfl | tail _ h => ?_)); exact nomatch h
theorem fresh1 : ∀ op ∈ (hostOps1 (F := F)), op.fresh = ∅ := by
  intro _ h; (repeat (cases h with | head => rfl | tail _ h => ?_)); exact nomatch h
theorem fresh1_1 : ∀ op ∈ (hostOps1_1 (F := F)), op.fresh = ∅ := by
  intro _ h; (repeat (cases h with | head => rfl | tail _ h => ?_)); exact nomatch h
theorem fresh1_2 : ∀ op ∈ (hostOps1_2 (F := F)), op.fresh = ∅ := by
  intro _ h; (repeat (cases h with | head => rfl | tail _ h => ?_)); exact nomatch h
theorem fresh1_3 : ∀ op ∈ (hostOps1_3 (F := F)), op.fresh = ∅ := by
  intro _ h; (repeat (cases h with | head => rfl | tail _ h => ?_)); exact nomatch h
theorem fresh1_4 : ∀ op ∈ (hostOps1_4 (F := F)), op.fresh = ∅ := by
  intro _ h; (repeat (cases h with | head => rfl | tail _ h => ?_)); exact nomatch h

/-- Core c's buffers at launch, as the operations' valuation. -/
abbrev Vm (c : Dev nD) : Valuation τ sig (Elt F) := fun b => m (c, b)

/-- The buffer contents after each stretch of host operations past the region. -/
abbrev W1 (c : Dev nD) : Valuation τ sig (Elt F) := StableHlo.after hostOps1 (V1 m c)
abbrev W2 (c : Dev nD) : Valuation τ sig (Elt F) := StableHlo.after hostOps1_1 (W1 m c)
abbrev W3 (c : Dev nD) : Valuation τ sig (Elt F) := StableHlo.after hostOps1_2 (W2 m c)
abbrev W4 (c : Dev nD) : Valuation τ sig (Elt F) := StableHlo.after hostOps1_3 (W3 m c)
abbrev W5 (c : Dev nD) : Valuation τ sig (Elt F) := StableHlo.after hostOps1_4 (W4 m c)

/-- The stretches one after the other are the whole tail. -/
theorem W5_eq (c : Dev nD) : W5 m c = Vend m c := by
  unfold Vend tailOps
  rw [StableHlo.after_append, StableHlo.after_append, StableHlo.after_append, StableHlo.after_append]

/-- THE HOST SEGMENTS: each stretch of operations over the unscoped buffers. -/
def seg0 : Pipeline.HostSeg (Name := ℕ) (U := UR sig nD τ) (pcfgs (F := F)) defs₀ 𝒱₀ L lv :=
  Pipeline.HostSeg.ofOps _ _ _ _ _ ucRefs hostOps0 (ops_sub _ hostOps0_sub) fresh0 (Vm m) R
def seg1 : Pipeline.HostSeg (Name := ℕ) (U := UR sig nD τ) (pcfgs (F := F)) defs₀ 𝒱₀ L lv :=
  Pipeline.HostSeg.ofOps _ _ _ _ _ ucRefs hostOps1 (ops_sub _ hostOps1_sub) fresh1 (V1 m) R
def seg2 : Pipeline.HostSeg (Name := ℕ) (U := UR sig nD τ) (pcfgs (F := F)) defs₀ 𝒱₀ L lv :=
  Pipeline.HostSeg.ofOps _ _ _ _ _ ucRefs hostOps1_1 (ops_sub _ hostOps1_1_sub) fresh1_1 (W1 m) R
def seg3 : Pipeline.HostSeg (Name := ℕ) (U := UR sig nD τ) (pcfgs (F := F)) defs₀ 𝒱₀ L lv :=
  Pipeline.HostSeg.ofOps _ _ _ _ _ ucRefs hostOps1_2 (ops_sub _ hostOps1_2_sub) fresh1_2 (W2 m) R
def seg4 : Pipeline.HostSeg (Name := ℕ) (U := UR sig nD τ) (pcfgs (F := F)) defs₀ 𝒱₀ L lv :=
  Pipeline.HostSeg.ofOps _ _ _ _ _ ucRefs hostOps1_3 (ops_sub _ hostOps1_3_sub) fresh1_3 (W3 m) R
def seg5 : Pipeline.HostSeg (Name := ℕ) (U := UR sig nD τ) (pcfgs (F := F)) defs₀ 𝒱₀ L lv :=
  Pipeline.HostSeg.ofOps _ _ _ _ _ ucRefs hostOps1_4 (ops_sub _ hostOps1_4_sub) fresh1_4 (W4 m) R

set_option backward.isDefEq.respectTransparency.types false in
/-- THE REGION: the launch's layout, no semaphore of the kernel's own, the body obligation; entered from what the
    first host stretch left — the concatenated array split between the two windows that read it, the result array
    whole, the generator register into the invariant, every other buffer bypassing —, left with the halves rejoined
    and the result array at what the write-backs made of it. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c.tc : Thread nD τ) ucRefs (V0 m c) ∗ R c)
  post c := iprop(StableHlo.held (c.tc : Thread nD τ) ucRefs (V1 m c) ∗ R c)
  X c := iprop(∃ r, prngReg c r)
  Y c := iprop(∃ r, prngReg c r)
  Z c := Pipeline.unscopedRest spec0 c (V m c)
  hentry c := by
    rw [show StableHlo.held (c.tc : Thread nD τ) ucRefs (V0 m c) = unscopedBufs c (V m c) from (Pipeline.unscopedBufs_held c _).symm]
    iintro ⟨⟨Hub, Hp, HO⟩, -, -⟩
    ihave H := (hentry_split m c) $$ Hub
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hz
  hin c := by
    rw [show (dats m 0 c).Φ 0 = Pipeline.ΦA spec0 c from rfl]; unfold Pipeline.ΦA
    iintro ⟨Hp, -, Hr⟩
    isplitl [Hr] <;> iassumption
  hout c := by
    rw [Pipeline.ownSems0_none, show (dats m 0 c).Φ (Fin.last cfg0.N) = Pipeline.ΦA spec0 c from rfl]; unfold Pipeline.ΦA
    iintro ⟨Hr, Hp⟩
    isplitl [Hp]; · iexact Hp
    isplitr; · iempintro
    iexact Hr
  hexit c := by
    rw [show StableHlo.held (c.tc : Thread nD τ) ucRefs (V1 m c) = unscopedBufs c (V1r m c) from (Pipeline.unscopedBufs_held c _).symm]
    iintro ⟨Ha, HO, Hp, Hz⟩
    imodintro
    isplitl [Ha Hz]
    · iapply (hexit_join m c)
      isplitl [Ha] <;> iassumption
    isplitl [Hp]; · iexact Hp
    unfold Pipeline.Dat.owesAt Pipeline.owesWithin
    icases HO with ⟨%W, -, HO⟩; iexists W; iexact HO

/-- @main as the list of its segments. -/
abbrev segs : List (Pipeline.Seg (pcfgs (F := F)) adm (dats m) () defs₀ 𝒱₀ L lv) :=
  [.host (seg0 m), .region (reg0 m), .host (seg1 m), .host (seg2 m), .host (seg3 m), .host (seg4 m), .host (seg5 m)]

/-- An unscoped TensorCore reference is among the buffers the host operations run within. -/
theorem mem_ucRefs (b : Ref sig .tc) (h : (Proc.devRef (τ := τ) .tc b).isScoped = false) : Proc.devRef (τ := τ) .tc b ∈ ucRefs :=
  Finset.mem_filter.mpr ⟨StableHlo.devRef_mem_tcRefs b, fun h' => Bool.false_ne_true (h.symm.trans h')⟩

set_option backward.isDefEq.respectTransparency.types false in
/-- Every weakly fair execution of @main terminates, and in every final state the result and the three arguments hold
    what the host operations after the region leave. -/
theorem run_main : θ_run defs (onTc (τ := τ) (main (F := F))) ⟨m, fun _ => 0, ρ⟩ (fun r => ∀ c : Dev nD,
      r.2.mem ((c.tc : Thread nD τ).loc main_v32) = Vend m c (Proc.devRef .tc main_v32)
      ∧ r.2.mem ((c.tc : Thread nD τ).loc main_arg0) = Vend m c (Proc.devRef .tc main_arg0)
      ∧ r.2.mem ((c.tc : Thread nD τ).loc main_arg1) = Vend m c (Proc.devRef .tc main_arg1)
      ∧ r.2.mem ((c.tc : Thread nD τ).loc main_arg2) = Vend m c (Proc.devRef .tc main_arg2)) :=
  Pipeline.θ_run_regions_kit (pcfgs (F := F)) adm (dats m) () cellOf_inj EP defs₀ 𝒱₀ L lv m ρ main (segs m)
    (fun c Q => by rw [main_chain c, Pipeline.Seg.run_eq_chain]; exact .rfl)
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) ucRefs (Vm m c) ∗ R c))
    (Tₙ := fun c => StableHlo.held (c.tc : Thread nD τ) ucRefs (Vend m c))
    (hch := ⟨fun _ => .rfl, fun _ => .rfl, fun _ => .rfl, fun _ => .rfl, fun _ => .rfl, fun _ => .rfl, fun _ => .rfl, fun c => by
      rw [show (Pipeline.Seg.host (seg5 m)).post c = iprop(StableHlo.held (c.tc : Thread nD τ) ucRefs (W5 m c) ∗ R c) from rfl, W5_eq]
      iintro ⟨Hh, -, HO⟩
      isplitl [Hh] <;> iassumption⟩)
    (hinit := by
      refine Pipeline.initEach L lv fun c => ?_
      rw [show unscopedBufs c (fun b => m ((c.tc : Thread nD τ).loc b)) = StableHlo.held (c.tc : Thread nD τ) ucRefs (Vm m c) from Pipeline.unscopedBufs_held c (Vm m c)]
      iintro ⟨⟨Hh, -, HO, -, Hp, -⟩, -⟩
      imodintro
      isplitl [Hh]; · iexact Hh
      isplitl [Hp]; · iexists _; iexact Hp
      iexists ∅; iexact HO)
    (QY := fun c s => ∀ b ∈ ucRefs, s.mem ((c.tc : Thread nD τ).1, b) = Vend m c b)
    (hfin := fun c s' => by
      unfold StableHlo.held
      iintro ⟨Hh, HSI⟩
      imodintro
      iapply (pointsTo_read_all ucRefs (fun b => ((c.tc : Thread nD τ).1, b)) (Vend m c) s')
      isplitl [Hh] <;> iassumption)
    (hQ := fun s h c => ⟨h c _ (mem_ucRefs main_v32 rfl), h c _ (mem_ucRefs main_arg0 rfl), h c _ (mem_ucRefs main_arg1 rfl), h c _ (mem_ucRefs main_arg2 rfl)⟩)

/-- No host operation writes an argument array. -/
theorem args_not_written (b : Ref sig .tc) (hb : b = main_arg0 ∨ b = main_arg1 ∨ b = main_arg2) (ops : List (HloOp τ sig (Elt F)))
    (hops : ops = hostOps0 ∨ ops = hostOps1 ∨ ops = hostOps1_1 ∨ ops = hostOps1_2 ∨ ops = hostOps1_3 ∨ ops = hostOps1_4) :
    ∀ op ∈ ops, Proc.devRef (τ := τ) .tc b ∉ op.writes := by
  refine List.forall_iff_forall_mem.mp ?_
  rcases hops with rfl | rfl | rfl | rfl | rfl | rfl <;> rcases hb with rfl | rfl | rfl <;>
  · simp only [hostOps0, hostOps1, hostOps1_1, hostOps1_2, hostOps1_3, hostOps1_4, List.Forall, StableHlo.TRef.nullary, StableHlo.TRef.unary, StableHlo.TRef.binary, StableHlo.TRef.ternary, StableHlo.TRef.reshape,
      StableHlo.nullary_writes, StableHlo.unary_writes, StableHlo.binary_writes, StableHlo.ternary_writes, StableHlo.reshape_writes, Finset.mem_singleton]
    repeat' apply And.intro
    all_goals exact StableHlo.devRef_ne_of_ne (by decide)

/-- An argument array ends as launched: no operation of the tail writes it, the region's write-backs go to the result
    array, and no operation before the region writes it. -/
theorem kept_args (b : Ref sig .tc) (hb : b = main_arg0 ∨ b = main_arg1 ∨ b = main_arg2) (c : Dev nD) :
    Vend m c (Proc.devRef .tc b) = m ((c.tc : Thread nD τ).loc b) := by
  have hne : Proc.devRef (τ := τ) .tc b ≠ Proc.devRef .tc main_v7 := by
    rcases hb with rfl | rfl | rfl <;> exact StableHlo.devRef_ne_of_ne (by decide)
  unfold Vend
  rw [StableHlo.after_of_forall_not_mem (b := Proc.devRef .tc b) tailOps (V1 m c) (fun op hop => by
    simp only [tailOps, List.mem_append] at hop
    rcases hop with h | h | h | h | h
    · exact args_not_written b hb hostOps1 (Or.inr (Or.inl rfl)) op h
    · exact args_not_written b hb hostOps1_1 (Or.inr (Or.inr (Or.inl rfl))) op h
    · exact args_not_written b hb hostOps1_2 (Or.inr (Or.inr (Or.inr (Or.inl rfl)))) op h
    · exact args_not_written b hb hostOps1_3 (Or.inr (Or.inr (Or.inr (Or.inr (Or.inl rfl))))) op h
    · exact args_not_written b hb hostOps1_4 (Or.inr (Or.inr (Or.inr (Or.inr (Or.inr rfl))))) op h)]
  unfold V1
  rw [Function.update_of_ne hne]
  exact StableHlo.after_of_forall_not_mem (b := Proc.devRef .tc b) hostOps0 _ (args_not_written b hb hostOps0 (Or.inl rfl))

/-- No operation of @main and no write-back touches an argument. -/
theorem kept_arg0 (c : Dev nD) : Vend m c (Proc.devRef .tc main_arg0) = m ((c.tc : Thread nD τ).loc main_arg0) :=
  kept_args m main_arg0 (Or.inl rfl) c
theorem kept_arg1 (c : Dev nD) : Vend m c (Proc.devRef .tc main_arg1) = m ((c.tc : Thread nD τ).loc main_arg1) :=
  kept_args m main_arg1 (Or.inr (Or.inl rfl)) c
theorem kept_arg2 (c : Dev nD) : Vend m c (Proc.devRef .tc main_arg2) = m ((c.tc : Thread nD τ).loc main_arg2) :=
  kept_args m main_arg2 (Or.inr (Or.inr rfl)) c

end Cert.KernelIdeal.Hand

end
-- ==== Proof.Spec.lean ====
/-
  The similarity matrix both programs compute, as one function of the concatenated features.

  For features X : [8192, 256] the entry (i, j) of the matrix is exp (⟨X i, X j⟩ · s), with s the reciprocal of the
  temperature: the kernel multiplies the inner product by it, the reference divides by the temperature; on the
  extended reals the two agree for a nonzero real temperature.
-/
import Idealize.ShloMosaic.PureOps.Ideal
import Idealize.ShloMosaic.Lib.ValueIdx

noncomputable section

namespace Cert.Spec

open Idealize.ShloMosaic Idealize.ShloMosaic.ValueIdx

/-- The features' shape and the matrix's. -/
abbrev SX : Shape := ⟨2, ![8192, 256]⟩
abbrev SN : Shape := ⟨2, ![8192, 8192]⟩

/-- The reciprocal of the temperature the reference divides by (the f32 nearest 0.05 is 13421773 / 268435456). -/
def invTemp : EReal := ((268435456 / 13421773 : ℝ) : EReal)

/-- Entry (i, j): exp of the inner product of rows i and j, scaled. -/
def negAt (X : SX.Idx → EReal) (i j : Fin 8192) : EReal :=
  Ideal.exp ((∑ k : Fin 256, X (ix2 i k) * X (ix2 j k)) * invTemp)

/-- The whole matrix. -/
def neg (X : SX.Idx → EReal) : SN.Idx → EReal := fun idx => negAt X (idx 0) (idx 1)

end Cert.Spec

end
-- ==== Proof.KI.Pay.lean ====
/-
  The body's stored value read at an index, on the extended reals: entry (i, j) of a result tile is
  exp ((∑ k, a i k · b j k) · inv_temp) for the resident block a and the key tile b (rounding to bf16 is the identity,
  the transposed tile read at (k, j) is b j k, the product into a zero accumulator is the plain sum).
-/
import proofs.«410178_j10892037063160_1_alg».proof.Proof.Gen.KernelIdeal.Skeleton
import proofs.«410178_j10892037063160_1_alg».proof.Proof.Spec
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen
open Idealize.ShloMosaic Idealize.ShloMosaic.ValueIdx

/-- The named scale denotes the reciprocal of the temperature: the table of named constants gives "inv_temp" the
    rational 268435456 / 13421773, not the dyadic 20 its bit pattern encodes. -/
theorem invTemp_named :
    Named.named (F := Ideal) κ "inv_temp" (φ := .f32) 0x41A00000#32 = Cert.Spec.invTemp :=
  IdealRules.named_const.ideal_named_scalar _ _ _ _ rfl

/-! ## The product's operand indices, axis by axis

The dimension numbers contract the left operand's axis 1 with the right operand's axis 0; the left operand's axis 0 and
the right operand's axis 1 are free and there is no batch axis. So at output index (r, c) and contraction position q the
left operand is read at (r, q) and the right one at (q, c). One lemma per operand axis. -/

/-- Left operand, axis 0 (free): the output's row. -/
theorem lhs_dot_0 (i : S8192x256.Idx) (q : dot_S8192x256_S256x256_S8192x256_1_0_0_1_n_n.contr.Idx) :
    (dot_S8192x256_S256x256_S8192x256_1_0_0_1_n_n.lhsIdx i q 0).val = (i 0).val := by
  unfold DotDims.lhsIdx
  rw [dif_neg (show ¬(0 : Fin S8192x256.rank) ∈ dot_S8192x256_S256x256_S8192x256_1_0_0_1_n_n.lhsBatch by decide),
    dif_pos (show (0 : Fin S8192x256.rank) ∈ dot_S8192x256_S256x256_S8192x256_1_0_0_1_n_n.lhsNonContracting by decide)]
  rfl

/-- Left operand, axis 1 (contracted): the contraction position. -/
theorem lhs_dot_1 (i : S8192x256.Idx) (q : dot_S8192x256_S256x256_S8192x256_1_0_0_1_n_n.contr.Idx) :
    (dot_S8192x256_S256x256_S8192x256_1_0_0_1_n_n.lhsIdx i q 1).val = (q ⟨0, by decide⟩).val :=
  dot_S8192x256_S256x256_S8192x256_1_0_0_1_n_n.lhsIdx_val_of_single rfl i q

/-- Right operand, axis 0 (contracted): the contraction position. -/
theorem rhs_dot_0 (i : S8192x256.Idx) (q : dot_S8192x256_S256x256_S8192x256_1_0_0_1_n_n.contr.Idx) :
    (dot_S8192x256_S256x256_S8192x256_1_0_0_1_n_n.rhsIdx i q 0).val = (q ⟨0, by decide⟩).val :=
  dot_S8192x256_S256x256_S8192x256_1_0_0_1_n_n.rhsIdx_val_of_single rfl i q

/-- Right operand, axis 1 (free): the output's column. -/
theorem rhs_dot_1 (i : S8192x256.Idx) (q : dot_S8192x256_S256x256_S8192x256_1_0_0_1_n_n.contr.Idx) :
    (dot_S8192x256_S256x256_S8192x256_1_0_0_1_n_n.rhsIdx i q 1).val = (i 1).val := by
  unfold DotDims.rhsIdx
  rw [dif_neg (show ¬(1 : Fin S256x256.rank) ∈ dot_S8192x256_S256x256_S8192x256_1_0_0_1_n_n.rhsBatch by decide),
    dif_pos (show (1 : Fin S256x256.rank) ∈ dot_S8192x256_S256x256_S8192x256_1_0_0_1_n_n.rhsNonContracting by decide)]
  rfl

/-! ## The product read at an index -/

/-- An [8192, 256] block times a [256, 256] matrix, accumulated into zero, read at (i, j): the sum over the shared
    axis of a i k · b k j. The contraction's one-axis index set is re-indexed by its coordinate k : Fin 256, and the two
    operand indices at that position are (i, k) and (k, j) by the four axis lemmas. -/
theorem matmul_zero_apply (a : FVec Ideal S8192x256 .bf16) (b : FVec Ideal S256x256 .bf16) (i : Fin 8192) (j : Fin 256) :
    matmul dot_S8192x256_S256x256_S8192x256_1_0_0_1_n_n none a b (constant (F := Ideal) S8192x256 .f32 0x00000000#32) (ix2 i j)
      = ∑ k : Fin 256, a (ix2 i k) * b (ix2 k j) := by
  simp only [matmul]
  rw [Ideal.matmul_constant_zero_apply,
    ← Equiv.sum_comp (contrEquiv1 dot_S8192x256_S256x256_S8192x256_1_0_0_1_n_n 256 rfl rfl).symm]
  refine Finset.sum_congr rfl fun k _ => ?_
  have hk := contrEquiv1_symm_val dot_S8192x256_S256x256_S8192x256_1_0_0_1_n_n 256 rfl rfl k
  have el : dot_S8192x256_S256x256_S8192x256_1_0_0_1_n_n.lhsIdx (ix2 i j)
      ((contrEquiv1 dot_S8192x256_S256x256_S8192x256_1_0_0_1_n_n 256 rfl rfl).symm k) = ix2 i k :=
    funext fun c => Fin.ext (by
      match c with
      | ⟨0, _⟩ => exact lhs_dot_0 _ _
      | ⟨1, _⟩ => exact (lhs_dot_1 _ _).trans hk)
  have er : dot_S8192x256_S256x256_S8192x256_1_0_0_1_n_n.rhsIdx (ix2 i j)
      ((contrEquiv1 dot_S8192x256_S256x256_S8192x256_1_0_0_1_n_n 256 rfl rfl).symm k) = ix2 k j :=
    funext fun c => Fin.ext (by
      match c with
      | ⟨0, _⟩ => exact (rhs_dot_0 _ _).trans hk
      | ⟨1, _⟩ => exact rhs_dot_1 _ _)
  rw [el, er]

/-! ## The stored value at an index -/

/-- Entry (i, j) of the stored tile. The exponential, the product with the broadcast scale and the broadcast itself act
    elementwise, so the entry is exp (m (i, j) · inv_temp) with m the matrix product; m (i, j) is the sum over k of the left
    operand at (i, k) times the right operand at (k, j); the right operand is the transposed key tile, whose entry (k, j)
    is the tile's entry (j, k); the casts to the same shape and the roundings to bf16 are the identity on the extended
    reals. -/
theorem pay_apply (x0 : Vec Ideal S8192x256 .f32) (x1 : Vec Ideal S256x256 .f32) (i : Fin 8192) (j : Fin 256) :
    k0_pay1 (F := Ideal) x0 x1 (ix2 i j)
      = Ideal.exp ((∑ k : Fin 256, x0 (ix2 i k) * x1 (ix2 j k)) * Cert.Spec.invTemp) := by
  unfold k0_pay1
  show Ideal.exp
      (matmul dot_S8192x256_S256x256_S8192x256_1_0_0_1_n_n none
          (truncf .bf16 (shapeCast S8192x256 x0 shapeCasts_S8192x256_S8192x256) bitsLt_bf16_f32)
          (transpose S256x256 [1, 0]
            (truncf .bf16 (shapeCast S256x256 x1 shapeCasts_S256x256_S256x256) bitsLt_bf16_f32)
            transposes_S256x256_p1_0_S256x256)
          (constant (F := Ideal) S8192x256 .f32 0x00000000#32) (ix2 i j)
        * Named.named (F := Ideal) κ "inv_temp" (φ := .f32) 0x41A00000#32) = _
  rw [matmul_zero_apply, invTemp_named]
  refine congrArg (fun s => Ideal.exp (s * Cert.Spec.invTemp)) (Finset.sum_congr rfl fun k _ => ?_)
  rw [transpose_ix2_apply, shapeCast_self, shapeCast_self]
  rfl

end Cert.KernelIdeal.Hand

end
-- ==== Proof.KI.Value.lean ====
/-
  What the region leaves in the result array, on the extended reals: the 32 column tiles written back make the whole
  similarity matrix of the concatenated features.
-/
import proofs.«410178_j10892037063160_1_alg».proof.Proof.KI.Body
import proofs.«410178_j10892037063160_1_alg».proof.Proof.KI.Pay
import proofs.«410178_j10892037063160_1_alg».proof.Proof.Spec
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- The offsets of a whole-buffer rectangle are all zero. -/
theorem off_zero : (![0, 0] : Fin 2 → Nat) = fun _ => 0 := funext fun a => by fin_cases a <;> rfl

/-- The three index maps over the grid: the resident operand's block never moves, the key tile moves down the rows of
    the features, the result tile moves along the columns of the matrix. -/
theorem block_index : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

/-- Entry (p, q) of a stored tile is entry (p, j) of the similarity matrix of X, when row p of the resident block is row p
    of X and row q of the key tile is row j of X. -/
theorem tile_entry (X : S8192x256.Idx → EReal) (x0 : Vec Ideal S8192x256 .f32) (x1 : Vec Ideal S256x256 .f32)
    (p j : Fin 8192) (q : Fin 256)
    (h0 : ∀ k : Fin 256, x0 (ix2 p k) = X (ix2 p k))
    (h1 : ∀ k : Fin 256, x1 (ix2 q k) = X (ix2 j k)) :
    k0_pay1 (F := Ideal) x0 x1 (ix2 p q) = Cert.Spec.negAt X p j := by
  rw [pay_apply]
  unfold Cert.Spec.negAt
  simp only [h0, h1]

/-- The resident operand's block at every point is the whole array of features. -/
theorem resident_apply (c : Dev nD) (t : Fin cfg0.N) (p : Fin 8192) (k : Fin 256) :
    (iblk (F := Ideal) m c 0 t : S8192x256.Idx → EReal) (ix2 p k) = (V m c main_v6 : S8192x256.Idx → EReal) (ix2 p k) := by
  obtain ⟨e00, e01, -⟩ := block_index t
  show (V m c main_v6 : S8192x256.Idx → EReal) (((cfg0.win 0).blk t).view.emb (ix2 p k)) = _
  refine congrArg _ ?_
  funext a; apply Fin.ext
  match a with
  | ⟨0, _⟩ => show win0_0.index t (0 : Fin 2) * 8192 + 1 * p.val = p.val; omega
  | ⟨1, _⟩ => show win0_0.index t (1 : Fin 2) * 256 + 1 * k.val = k.val; omega

/-- The key tile at point t is rows 256 t … 256 t + 255 of the same array. -/
theorem key_apply (c : Dev nD) (t : Fin cfg0.N) (q k : Fin 256) (j : Fin 8192) (hj : j.val = 256 * t.val + q.val) :
    (iblk (F := Ideal) m c 1 t : S256x256.Idx → EReal) (ix2 q k) = (V m c main_v6 : S8192x256.Idx → EReal) (ix2 j k) := by
  obtain ⟨-, -, e10, e11, -⟩ := block_index t
  show (V m c main_v6 : S8192x256.Idx → EReal) (((cfg0.win 1).blk t).view.emb (ix2 q k)) = _
  refine congrArg _ ?_
  funext a; apply Fin.ext
  match a with
  | ⟨0, _⟩ => show win0_1.index t (0 : Fin 2) * 256 + 1 * q.val = j.val; omega
  | ⟨1, _⟩ => show win0_1.index t (1 : Fin 2) * 256 + 1 * k.val = k.val; omega

/-- What point t writes back is the t-th column tile of the similarity matrix of the features. -/
theorem flushed_eq (c : Dev nD) (t : Fin cfg0.N) :
    (dats (F := Ideal) m 0 c).flushed 2 t
      = ((cfg0.win 2).blk t).view.read (Elt Ideal) (Cert.Spec.neg (V m c main_v6 : S8192x256.Idx → EReal)) := by
  show (cfg0.win 2).cut (grid0.coords t) ((dats m 0 c).after 2 t) = _
  rw [after0_2]
  unfold out0_2
  rw [View.canon_unit_zero off_zero]
  simp only [View.ld_unit_zero (S := S8192x256) off_zero, View.ld_unit_zero (S := S256x256) off_zero]
  obtain ⟨-, -, -, -, e20, e21⟩ := block_index t
  funext y
  obtain ⟨p, q, rfl⟩ : ∃ (p : Fin 8192) (q : Fin 256), y = ix2 p q := ⟨y 0, y 1, eq_ix2 y⟩
  have ht : t.val < 32 := lt_of_lt_of_eq t.isLt N_0
  have hp : p.val < 8192 := p.isLt
  have hq : q.val < 256 := q.isLt
  show k0_pay1 (F := Ideal) (iblk m c 0 t) (iblk m c 1 t) (ix2 p q)
    = Cert.Spec.negAt (V m c main_v6 : S8192x256.Idx → EReal)
        ⟨win0_2.index t (0 : Fin 2) * 8192 + 1 * p.val, by omega⟩ ⟨win0_2.index t (1 : Fin 2) * 256 + 1 * q.val, by omega⟩
  refine (tile_entry (V m c main_v6) (iblk m c 0 t) (iblk m c 1 t) p ⟨256 * t.val + q.val, by omega⟩ q
    (fun k => resident_apply m c t p k) (fun k => key_apply m c t q k _ rfl)).trans ?_
  refine congrArg₂ _ (Fin.ext ?_) (Fin.ext ?_)
  · show p.val = win0_2.index t (0 : Fin 2) * 8192 + 1 * p.val; omega
  · show 256 * t.val + q.val = win0_2.index t (1 : Fin 2) * 256 + 1 * q.val; omega

/-- An index of the matrix is in point t's tile iff each coordinate is in the tile's range on its axis. -/
theorem mem_tile (t : Fin cfg0.N) (i : S8192x8192.Idx) :
    i ∈ ((cfg0.win 2).blk t).view.set
      ↔ ∀ a : Fin 2, win0_2.index t a * S8192x256.size a ≤ (i a).val ∧ (i a).val < win0_2.index t a * S8192x256.size a + S8192x256.size a := by
  show i ∈ ((View.whole main_v7).slice (win0_2.rect t)).set ↔ _
  rw [View.set_slice_whole, Rect.mem_set_unit]
  exact Iff.rfl

/-- Column j of the matrix is in the tile of point j / 256, which writes back like every point. -/
theorem tiles_cover (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  have hN : cfg0.N = 32 := N_0
  have hlt : (i 1).val / 256 < cfg0.N := by rw [hN]; omega
  obtain ⟨-, -, -, -, e20, e21⟩ := block_index ⟨(i 1).val / 256, hlt⟩
  refine ⟨⟨(i 1).val / 256, hlt⟩, flush0_2 _, ?_⟩
  rw [mem_tile]
  intro a
  match a with
  | ⟨0, _⟩ =>
    show win0_2.index ⟨(i 1).val / 256, hlt⟩ (0 : Fin 2) * 8192 ≤ (i 0).val
      ∧ (i 0).val < win0_2.index ⟨(i 1).val / 256, hlt⟩ (0 : Fin 2) * 8192 + 8192
    rw [e20]; omega
  | ⟨1, _⟩ =>
    show win0_2.index ⟨(i 1).val / 256, hlt⟩ (1 : Fin 2) * 256 ≤ (i 1).val
      ∧ (i 1).val < win0_2.index ⟨(i 1).val / 256, hlt⟩ (1 : Fin 2) * 256 + 256
    rw [e21]; show (i 1).val / 256 * 256 ≤ (i 1).val ∧ (i 1).val < (i 1).val / 256 * 256 + 256; omega

/-- After the last point the result array holds the similarity matrix of the array both read windows stage. -/
theorem arr2_eq (c : Dev nD) :
    ((dats (F := Ideal) m 0 c).arrAt 2 cfg0.N : S8192x8192.Idx → EReal) = Cert.Spec.neg (V m c main_v6 : S8192x256.Idx → EReal) :=
  (dats (F := Ideal) m 0 c).arrAt_eq_of_cover 2 (Cert.Spec.neg (V m c main_v6 : S8192x256.Idx → EReal))
    (fun t _ => flushed_eq m c t) tiles_cover

end Cert.KernelIdeal.Hand

end
-- ==== Proof.Ref.Ops.lean ====
/-
  The reference program's @main as lists of its host operations, the two module-local functions it calls (the
  remainder and the take-along-axis) written out at their call sites over the calls' own buffers.
-/
import proofs.«410178_j10892037063160_1_alg».proof.Proof.Gen.ReferenceIdeal
import Idealize.ShloMosaic.Lib.StableHlo.Run
import Idealize.ShloMosaic.Lib.Pipeline.Regions

noncomputable section

namespace Cert.ReferenceIdeal.Hand

open Cert.ReferenceIdeal Cert.ReferenceIdeal.Gen
open Idealize.ShloMosaic Idealize.ShloMosaic.TcCoe Idealize.SL.Sem

variable {F : FTy → Type} [FloatOps F]

/-- 17 operations: the positive pairs, the concatenated features, the similarity matrix, the row numbers. -/
abbrev opsR0 : List (HloOp τ sig (Elt F)) :=
  [ StableHlo.binary main_arg0 main_arg1 main_v0 (mulf : (⟨S4096x256, .f32⟩ : BufTy).Contents (Elt F) → (⟨S4096x256, .f32⟩ : BufTy).Contents (Elt F) → (⟨S4096x256, .f32⟩ : BufTy).Contents (Elt F)),
    StableHlo.nullary main_cst (constant S_ .f32 0x00000000#32),
    StableHlo.binary main_v0 main_cst main_v1 ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)),
    StableHlo.nullary main_cst_0 (constant S_ .f32 0x3D4CCCCD#32),
    StableHlo.unary main_cst_0 main_v2 (broadcastInDim S4096 ![] bcast_S_S4096 : (⟨S_, .f32⟩ : BufTy).Contents (Elt F) → (⟨S4096, .f32⟩ : BufTy).Contents (Elt F)),
    StableHlo.binary main_v1 main_v2 main_v3 (Host.divf : (⟨S4096, .f32⟩ : BufTy).Contents (Elt F) → (⟨S4096, .f32⟩ : BufTy).Contents (Elt F) → (⟨S4096, .f32⟩ : BufTy).Contents (Elt F)),
    StableHlo.unary main_v3 main_v4 (Host.exp : (⟨S4096, .f32⟩ : BufTy).Contents (Elt F) → (⟨S4096, .f32⟩ : BufTy).Contents (Elt F)),
    StableHlo.binary main_v4 main_v4 main_v5 ((fun a b => concatenate S8192 0 [⟨S4096, a⟩, ⟨S4096, b⟩] concatenates_S4096_S4096_S8192_d0) : (⟨S4096, .f32⟩ : BufTy).Contents (Elt F) → (⟨S4096, .f32⟩ : BufTy).Contents (Elt F) → (⟨S8192, .f32⟩ : BufTy).Contents (Elt F)),
    StableHlo.binary main_arg0 main_arg1 main_v6 ((fun a b => concatenate S8192x256 0 [⟨S4096x256, a⟩, ⟨S4096x256, b⟩] concatenates_S4096x256_S4096x256_S8192x256_d0) : (⟨S4096x256, .f32⟩ : BufTy).Contents (Elt F) → (⟨S4096x256, .f32⟩ : BufTy).Contents (Elt F) → (⟨S8192x256, .f32⟩ : BufTy).Contents (Elt F)),
    StableHlo.unary main_v6 main_v7 ((transpose S256x8192 [1, 0] · transposes_S8192x256_S256x8192_1_0) : (⟨S8192x256, .f32⟩ : BufTy).Contents (Elt F) → (⟨S256x8192, .f32⟩ : BufTy).Contents (Elt F)),
    StableHlo.binary main_v6 main_v7 main_v8 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    StableHlo.nullary main_cst_1 (constant S_ .f32 0x3D4CCCCD#32),
    StableHlo.unary main_cst_1 main_v9 (broadcastInDim S8192x8192 ![] bcast_S_S8192x8192 : (⟨S_, .f32⟩ : BufTy).Contents (Elt F) → (⟨S8192x8192, .f32⟩ : BufTy).Contents (Elt F)),
    StableHlo.binary main_v8 main_v9 main_v10 (Host.divf : (⟨S8192x8192, .f32⟩ : BufTy).Contents (Elt F) → (⟨S8192x8192, .f32⟩ : BufTy).Contents (Elt F) → (⟨S8192x8192, .f32⟩ : BufTy).Contents (Elt F)),
    StableHlo.unary main_v10 main_v11 (Host.exp : (⟨S8192x8192, .f32⟩ : BufTy).Contents (Elt F) → (⟨S8192x8192, .f32⟩ : BufTy).Contents (Elt F)),
    StableHlo.nullary main_v12 (iotaInDim S8192 32 0),
    StableHlo.nullary main_c (constantI S_ 32 4096#32) ]
theorem opsR0_sub : (opsR0 : List (HloOp τ sig (Elt F))).Forall fun op => op.bufs ⊆ StableHlo.tcRefs τ sig :=
  ⟨StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.nullary_bufs_sub ..⟩

/-- 21 operations: the remainder of the row numbers by 4096, written out. -/
abbrev opsR1 : List (HloOp τ sig (Elt F)) :=
  [ StableHlo.TRef.unary (.of main_c : StableHlo.TRef sig ⟨S_, .i32⟩) (.of main_call0_v0 : StableHlo.TRef sig ⟨S_, .i32⟩) id,
    StableHlo.TRef.nullary (.of main_call0_c : StableHlo.TRef sig ⟨S_, .i32⟩) (constantI S_ 32 0#32),
    StableHlo.TRef.binary (.of main_call0_v0 : StableHlo.TRef sig ⟨S_, .i32⟩) (.of main_call0_c : StableHlo.TRef sig ⟨S_, .i32⟩) (.of main_call0_v1 : StableHlo.TRef sig ⟨S_, .i1⟩) (cmpi .eq),
    StableHlo.TRef.nullary (.of main_call0_c_0 : StableHlo.TRef sig ⟨S_, .i32⟩) (constantI S_ 32 1#32),
    StableHlo.TRef.ternary (.of main_call0_v1 : StableHlo.TRef sig ⟨S_, .i1⟩) (.of main_call0_c_0 : StableHlo.TRef sig ⟨S_, .i32⟩) (.of main_call0_v0 : StableHlo.TRef sig ⟨S_, .i32⟩) (.of main_call0_v2 : StableHlo.TRef sig ⟨S_, .i32⟩) select,
    StableHlo.TRef.unary main_call0_call0.v0 (.of main_call0_v3 : StableHlo.TRef sig ⟨S8192, .i32⟩) (broadcastInDim S8192 ![] bcast_S_S8192),
    StableHlo.TRef.binary (.of main_v12 : StableHlo.TRef sig ⟨S8192, .i32⟩) (.of main_call0_v3 : StableHlo.TRef sig ⟨S8192, .i32⟩) (.of main_call0_v4 : StableHlo.TRef sig ⟨S8192, .i32⟩) Host.remsi,
    StableHlo.TRef.nullary (.of main_call0_c_1 : StableHlo.TRef sig ⟨S_, .i32⟩) (constantI S_ 32 0#32),
    StableHlo.TRef.unary (.of main_call0_c_1 : StableHlo.TRef sig ⟨S_, .i32⟩) (.of main_call0_v5 : StableHlo.TRef sig ⟨S8192, .i32⟩) (broadcastInDim S8192 ![] bcast_S_S8192),
    StableHlo.TRef.binary (.of main_call0_v4 : StableHlo.TRef sig ⟨S8192, .i32⟩) (.of main_call0_v5 : StableHlo.TRef sig ⟨S8192, .i32⟩) (.of main_call0_v6 : StableHlo.TRef sig ⟨S8192, .i1⟩) (cmpi .ne),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v7 : StableHlo.TRef sig ⟨S8192, .i32⟩) (broadcastInDim S8192 ![] bcast_S_S8192),
    StableHlo.TRef.binary (.of main_call0_v4 : StableHlo.TRef sig ⟨S8192, .i32⟩) (.of main_call0_v7 : StableHlo.TRef sig ⟨S8192, .i32⟩) (.of main_call0_v8 : StableHlo.TRef sig ⟨S8192, .i1⟩) (cmpi .slt),
    StableHlo.TRef.nullary (.of main_call0_c_3 : StableHlo.TRef sig ⟨S_, .i32⟩) (constantI S_ 32 0#32),
    StableHlo.TRef.binary main_call0_call0.v0 (.of main_call0_c_3 : StableHlo.TRef sig ⟨S_, .i32⟩) (.of main_call0_v9 : StableHlo.TRef sig ⟨S_, .i1⟩) (cmpi .slt),
    StableHlo.TRef.unary (.of main_call0_v9 : StableHlo.TRef sig ⟨S_, .i1⟩) (.of main_call0_v10 : StableHlo.TRef sig ⟨S8192, .i1⟩) (broadcastInDim S8192 ![] bcast_S_S8192),
    StableHlo.TRef.binary (.of main_call0_v8 : StableHlo.TRef sig ⟨S8192, .i1⟩) (.of main_call0_v10 : StableHlo.TRef sig ⟨S8192, .i1⟩) (.of main_call0_v11 : StableHlo.TRef sig ⟨S8192, .i1⟩) (cmpi .ne),
    StableHlo.TRef.binary (.of main_call0_v11 : StableHlo.TRef sig ⟨S8192, .i1⟩) (.of main_call0_v6 : StableHlo.TRef sig ⟨S8192, .i1⟩) (.of main_call0_v12 : StableHlo.TRef sig ⟨S8192, .i1⟩) andi,
    StableHlo.TRef.unary main_call0_call0.v0 (.of main_call0_v13 : StableHlo.TRef sig ⟨S8192, .i32⟩) (broadcastInDim S8192 ![] bcast_S_S8192),
    StableHlo.TRef.binary (.of main_call0_v4 : StableHlo.TRef sig ⟨S8192, .i32⟩) (.of main_call0_v13 : StableHlo.TRef sig ⟨S8192, .i32⟩) (.of main_call0_v14 : StableHlo.TRef sig ⟨S8192, .i32⟩) addi,
    StableHlo.TRef.ternary (.of main_call0_v12 : StableHlo.TRef sig ⟨S8192, .i1⟩) (.of main_call0_v14 : StableHlo.TRef sig ⟨S8192, .i32⟩) (.of main_call0_v4 : StableHlo.TRef sig ⟨S8192, .i32⟩) (.of main_v13 : StableHlo.TRef sig ⟨S8192, .i32⟩) select ]
theorem opsR1_sub : (opsR1 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩

/-- 18 operations: the hard-negative column indices. -/
abbrev opsR2 : List (HloOp τ sig (Elt F)) :=
  [ StableHlo.nullary main_c_2 (constantI S_ 32 0#32),
    StableHlo.unary main_c_2 main_v14 (broadcastInDim S8192 ![] bcast_S_S8192 : (⟨S_, .i32⟩ : BufTy).Contents (Elt F) → (⟨S8192, .i32⟩ : BufTy).Contents (Elt F)),
    StableHlo.binary main_v13 main_v14 main_v15 (cmpi .slt : (⟨S8192, .i32⟩ : BufTy).Contents (Elt F) → (⟨S8192, .i32⟩ : BufTy).Contents (Elt F) → (⟨S8192, .i1⟩ : BufTy).Contents (Elt F)),
    StableHlo.nullary main_c_3 (constantI S_ 32 4096#32),
    StableHlo.unary main_c_3 main_v16 (broadcastInDim S8192 ![] bcast_S_S8192 : (⟨S_, .i32⟩ : BufTy).Contents (Elt F) → (⟨S8192, .i32⟩ : BufTy).Contents (Elt F)),
    StableHlo.binary main_v13 main_v16 main_v17 (addi : (⟨S8192, .i32⟩ : BufTy).Contents (Elt F) → (⟨S8192, .i32⟩ : BufTy).Contents (Elt F) → (⟨S8192, .i32⟩ : BufTy).Contents (Elt F)),
    StableHlo.ternary main_v15 main_v17 main_v13 main_v18 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v18 main_v19 (broadcastInDim S8192x1 ![0] bcast_S8192_S8192x1_0 : (⟨S8192, .i32⟩ : BufTy).Contents (Elt F) → (⟨S8192x1, .i32⟩ : BufTy).Contents (Elt F)),
    StableHlo.binary main_arg2 main_v19 main_v20 ((fun x i => Host.gather gather_S4096x64_S8192x1_S8192x64_1_0_n_n_0_1_164 x i) : (⟨S4096x64, .i32⟩ : BufTy).Contents (Elt F) → (⟨S8192x1, .i32⟩ : BufTy).Contents (Elt F) → (⟨S8192x64, .i32⟩ : BufTy).Contents (Elt F)),
    StableHlo.unary main_v13 main_v21 (broadcastInDim S8192x1 ![0] bcast_S8192_S8192x1_0 : (⟨S8192, .i32⟩ : BufTy).Contents (Elt F) → (⟨S8192x1, .i32⟩ : BufTy).Contents (Elt F)),
    StableHlo.unary main_v21 main_v22 (broadcastInDim S8192x64 ![0, 1] bcast_S8192x1_S8192x64_0_1 : (⟨S8192x1, .i32⟩ : BufTy).Contents (Elt F) → (⟨S8192x64, .i32⟩ : BufTy).Contents (Elt F)),
    StableHlo.binary main_v20 main_v22 main_v23 (cmpi .sge : (⟨S8192x64, .i32⟩ : BufTy).Contents (Elt F) → (⟨S8192x64, .i32⟩ : BufTy).Contents (Elt F) → (⟨S8192x64, .i1⟩ : BufTy).Contents (Elt F)),
    StableHlo.unary main_v23 main_v24 ((extui 32 · natLt_1_32) : (⟨S8192x64, .i1⟩ : BufTy).Contents (Elt F) → (⟨S8192x64, .i32⟩ : BufTy).Contents (Elt F)),
    StableHlo.binary main_v20 main_v24 main_v25 (addi : (⟨S8192x64, .i32⟩ : BufTy).Contents (Elt F) → (⟨S8192x64, .i32⟩ : BufTy).Contents (Elt F) → (⟨S8192x64, .i32⟩ : BufTy).Contents (Elt F)),
    StableHlo.nullary main_c_4 (constantI S_ 32 4096#32),
    StableHlo.unary main_c_4 main_v26 (broadcastInDim S8192x64 ![] bcast_S_S8192x64 : (⟨S_, .i32⟩ : BufTy).Contents (Elt F) → (⟨S8192x64, .i32⟩ : BufTy).Contents (Elt F)),
    StableHlo.binary main_v25 main_v26 main_v27 (addi : (⟨S8192x64, .i32⟩ : BufTy).Contents (Elt F) → (⟨S8192x64, .i32⟩ : BufTy).Contents (Elt F) → (⟨S8192x64, .i32⟩ : BufTy).Contents (Elt F)),
    StableHlo.binary main_v25 main_v27 main_v28 ((fun a b => concatenate S8192x128 1 [⟨S8192x64, a⟩, ⟨S8192x64, b⟩] concatenates_S8192x64_S8192x64_S8192x128_d1) : (⟨S8192x64, .i32⟩ : BufTy).Contents (Elt F) → (⟨S8192x64, .i32⟩ : BufTy).Contents (Elt F) → (⟨S8192x128, .i32⟩ : BufTy).Contents (Elt F)) ]
theorem opsR2_sub : (opsR2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub ..⟩

/-- 22 operations: the take-along-axis of the similarity matrix at those columns, written out. -/
abbrev opsR3 : List (HloOp τ sig (Elt F)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S8192x128, .i32⟩) (broadcastInDim S8192x128 ![] bcast_S_S8192x128),
    StableHlo.TRef.binary (.of main_v28 : StableHlo.TRef sig ⟨S8192x128, .i32⟩) (.of main_call1_v0 : StableHlo.TRef sig ⟨S8192x128, .i32⟩) (.of main_call1_v1 : StableHlo.TRef sig ⟨S8192x128, .i1⟩) (cmpi .slt),
    StableHlo.TRef.nullary (.of main_call1_c_0 : StableHlo.TRef sig ⟨S_, .i32⟩) (constantI S_ 32 8192#32),
    StableHlo.TRef.unary (.of main_call1_c_0 : StableHlo.TRef sig ⟨S_, .i32⟩) (.of main_call1_v2 : StableHlo.TRef sig ⟨S8192x128, .i32⟩) (broadcastInDim S8192x128 ![] bcast_S_S8192x128),
    StableHlo.TRef.binary (.of main_v28 : StableHlo.TRef sig ⟨S8192x128, .i32⟩) (.of main_call1_v2 : StableHlo.TRef sig ⟨S8192x128, .i32⟩) (.of main_call1_v3 : StableHlo.TRef sig ⟨S8192x128, .i32⟩) addi,
    StableHlo.TRef.ternary (.of main_call1_v1 : StableHlo.TRef sig ⟨S8192x128, .i1⟩) (.of main_call1_v3 : StableHlo.TRef sig ⟨S8192x128, .i32⟩) (.of main_v28 : StableHlo.TRef sig ⟨S8192x128, .i32⟩) (.of main_call1_v4 : StableHlo.TRef sig ⟨S8192x128, .i32⟩) select,
    StableHlo.TRef.reshape (.of main_call1_v4 : StableHlo.TRef sig ⟨S8192x128, .i32⟩) (.of main_call1_v5 : StableHlo.TRef sig ⟨S8192x128x1, .i32⟩) rfl shapeCasts_S8192x128_S8192x128x1,
    StableHlo.TRef.nullary (.of main_call1_c_1 : StableHlo.TRef sig ⟨S1, .i32⟩) (constantI S1 32 8191#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S8192x128x1, .i32⟩) (broadcastInDim S8192x128x1 ![] bcast_S_S8192x128x1),
    StableHlo.TRef.binary (.of main_call1_v5 : StableHlo.TRef sig ⟨S8192x128x1, .i32⟩) (.of main_call1_v6 : StableHlo.TRef sig ⟨S8192x128x1, .i32⟩) (.of main_call1_v7 : StableHlo.TRef sig ⟨S8192x128x1, .i1⟩) (cmpi .sge),
    StableHlo.TRef.unary (.of main_call1_c_1 : StableHlo.TRef sig ⟨S1, .i32⟩) (.of main_call1_v8 : StableHlo.TRef sig ⟨S1x1x1, .i32⟩) (broadcastInDim S1x1x1 ![2] bcast_S1_S1x1x1_2),
    StableHlo.TRef.unary (.of main_call1_v8 : StableHlo.TRef sig ⟨S1x1x1, .i32⟩) (.of main_call1_v9 : StableHlo.TRef sig ⟨S8192x128x1, .i32⟩) (broadcastInDim S8192x128x1 ![0, 1, 2] bcast_S1x1x1_S8192x128x1_0_1_2),
    StableHlo.TRef.binary (.of main_call1_v5 : StableHlo.TRef sig ⟨S8192x128x1, .i32⟩) (.of main_call1_v9 : StableHlo.TRef sig ⟨S8192x128x1, .i32⟩) (.of main_call1_v10 : StableHlo.TRef sig ⟨S8192x128x1, .i1⟩) (cmpi .sle),
    StableHlo.TRef.binary (.of main_call1_v7 : StableHlo.TRef sig ⟨S8192x128x1, .i1⟩) (.of main_call1_v10 : StableHlo.TRef sig ⟨S8192x128x1, .i1⟩) (.of main_call1_v11 : StableHlo.TRef sig ⟨S8192x128x1, .i1⟩) andi,
    StableHlo.TRef.nullary (.of main_call1_c_3 : StableHlo.TRef sig ⟨S_, .i1⟩) (constantI S_ 1 1#1),
    StableHlo.TRef.binary (.of main_call1_v11 : StableHlo.TRef sig ⟨S8192x128x1, .i1⟩) (.of main_call1_c_3 : StableHlo.TRef sig ⟨S_, .i1⟩) (.of main_call1_v12 : StableHlo.TRef sig ⟨S8192x128, .i1⟩) (fun x v => Host.reduce IntOp.andi x v reducesTo_S8192x128x1_S8192x128_d2 h_S_),
    StableHlo.TRef.binary (.of main_v11 : StableHlo.TRef sig ⟨S8192x8192, .f32⟩) (.of main_call1_v5 : StableHlo.TRef sig ⟨S8192x128x1, .i32⟩) (.of main_call1_v13 : StableHlo.TRef sig ⟨S8192x128, .f32⟩) (fun x i => Host.gather gather_S8192x8192_S8192x128x1_S8192x128_n_1_0_0_1_2_11 x i),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v14 : StableHlo.TRef sig ⟨S8192x128, .f32⟩) (broadcastInDim S8192x128 ![] bcast_S_S8192x128),
    StableHlo.TRef.ternary (.of main_call1_v12 : StableHlo.TRef sig ⟨S8192x128, .i1⟩) (.of main_call1_v13 : StableHlo.TRef sig ⟨S8192x128, .f32⟩) (.of main_call1_v14 : StableHlo.TRef sig ⟨S8192x128, .f32⟩) (.of main_v29 : StableHlo.TRef sig ⟨S8192x128, .f32⟩) select ]
theorem opsR3_sub : (opsR3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩

/-- 10 operations: the row sums and the loss. -/
abbrev opsR4 : List (HloOp τ sig (Elt F)) :=
  [ StableHlo.nullary main_cst_5 (constant S_ .f32 0x00000000#32),
    StableHlo.binary main_v29 main_cst_5 main_v30 ((fun x v => Host.reduceAdd x v reducesTo_S8192x128_S8192_d1 h_S_) : (⟨S8192x128, .f32⟩ : BufTy).Contents (Elt F) → (⟨S_, .f32⟩ : BufTy).Contents (Elt F) → (⟨S8192, .f32⟩ : BufTy).Contents (Elt F)),
    StableHlo.binary main_v30 main_v5 main_v31 (addf : (⟨S8192, .f32⟩ : BufTy).Contents (Elt F) → (⟨S8192, .f32⟩ : BufTy).Contents (Elt F) → (⟨S8192, .f32⟩ : BufTy).Contents (Elt F)),
    StableHlo.binary main_v5 main_v31 main_v32 (Host.divf : (⟨S8192, .f32⟩ : BufTy).Contents (Elt F) → (⟨S8192, .f32⟩ : BufTy).Contents (Elt F) → (⟨S8192, .f32⟩ : BufTy).Contents (Elt F)),
    StableHlo.unary main_v32 main_v33 (Host.log : (⟨S8192, .f32⟩ : BufTy).Contents (Elt F) → (⟨S8192, .f32⟩ : BufTy).Contents (Elt F)),
    StableHlo.unary main_v33 main_v34 (Host.negf : (⟨S8192, .f32⟩ : BufTy).Contents (Elt F) → (⟨S8192, .f32⟩ : BufTy).Contents (Elt F)),
    StableHlo.nullary main_cst_6 (constant S_ .f32 0x00000000#32),
    StableHlo.binary main_v34 main_cst_6 main_v35 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_7 (constant S_ .f32 0x46000000#32),
    StableHlo.binary main_v35 main_cst_7 main_v36 (Host.divf : (⟨S_, .f32⟩ : BufTy).Contents (Elt F) → (⟨S_, .f32⟩ : BufTy).Contents (Elt F) → (⟨S_, .f32⟩ : BufTy).Contents (Elt F)) ]
theorem opsR4_sub : (opsR4 : List (HloOp τ sig (Elt F))).Forall fun op => op.bufs ⊆ StableHlo.tcRefs τ sig :=
  ⟨StableHlo.nullary_bufs_sub .., StableHlo.binary_bufs_sub .., StableHlo.binary_bufs_sub .., StableHlo.binary_bufs_sub .., StableHlo.unary_bufs_sub .., StableHlo.unary_bufs_sub .., StableHlo.nullary_bufs_sub .., StableHlo.binary_bufs_sub .., StableHlo.nullary_bufs_sub .., StableHlo.binary_bufs_sub ..⟩

/-- @main's operations, in order. -/
abbrev opsR : List (HloOp τ sig (Elt F)) := opsR0 ++ (opsR1 ++ (opsR2 ++ (opsR3 ++ opsR4)))

end Cert.ReferenceIdeal.Hand

end
-- ==== Proof.Ref.Run.lean ====
/-
  The reference program's run: every weakly fair execution of @main terminates with each buffer at the fold of its
  operations' results over the launch contents.
-/
import proofs.«410178_j10892037063160_1_alg».proof.Proof.Ref.Ops
import Idealize.ShloMosaic.Lib.StableHlo.Run

noncomputable section

namespace Cert.ReferenceIdeal.Hand

open Cert.ReferenceIdeal Cert.ReferenceIdeal.Gen
open Idealize.ShloMosaic Idealize.ShloMosaic.TcCoe Idealize.SL.Sem Idealize.ShloMosaic.StableHlo

variable {F : FTy → Type} [FloatOps F]

/-! ## @main as one line of operations -/

/-- A chain of lines of operations is the line of their concatenation. -/
theorem chain_map_seq {nD : Nat} {τ : Topo} {sig : RefSig} {Val : EltTy → Type} {Λ : Labels} :
    ∀ Ls : List (List (HloOp τ sig Val)),
      Pipeline.chain (Ls.map fun l => (seq l : Prog (TpuEff nD τ sig Val Λ .tc) PUnit)) = seq Ls.flatten
  | [] => rfl
  | l :: Ls => by
    rw [List.map_cons, Pipeline.chain_cons, List.flatten_cons, seq_append, chain_map_seq Ls]

/-- @main is the chain of its five stretches: each call's body unfolds to the stretch written for it. -/
theorem main_chain (c : Dev nD) : main (F := F) c = (Pipeline.chain
    [ seq opsR0, seq opsR1, seq opsR2, seq opsR3, seq opsR4 ] :
      Prog (TpuEff nD τ sig (Elt F) (Pipeline.Sig Λ₀ (Fin 0) fun p => (pcfgs (F := F) p).Adm) .tc) PUnit) := by
  chain_rfl

/-- @main is the sequence of its operations, the two calls written out. -/
theorem main_eq (c : Dev nD) : main (F := F) c = seq opsR :=
  (main_chain c).trans ((chain_map_seq [opsR0, opsR1, opsR2, opsR3, opsR4]).trans
    (congrArg seq (by simp only [List.flatten_cons, List.flatten_nil, List.append_nil])))

/-! ## The run -/

theorem scopedRefs_eq : (Finset.univ.filter fun b : Ref sig .tc => b.isScoped) = ∅ := by decide
theorem scopedSems_eq : (Finset.univ.filter fun sm : SemLoc sig => sm.isScoped .tc) = ∅ := by decide

/-- A property of every operation of each stretch is one of every operation of @main. -/
theorem forall_mem_opsR {P : HloOp τ sig (Elt F) → Prop}
    (h0 : ∀ op ∈ (opsR0 : List (HloOp τ sig (Elt F))), P op) (h1 : ∀ op ∈ (opsR1 : List (HloOp τ sig (Elt F))), P op)
    (h2 : ∀ op ∈ (opsR2 : List (HloOp τ sig (Elt F))), P op) (h3 : ∀ op ∈ (opsR3 : List (HloOp τ sig (Elt F))), P op)
    (h4 : ∀ op ∈ (opsR4 : List (HloOp τ sig (Elt F))), P op) :
    ∀ op ∈ (opsR : List (HloOp τ sig (Elt F))), P op := by
  intro op h
  rcases List.mem_append.1 h with h | h
  · exact h0 op h
  rcases List.mem_append.1 h with h | h
  · exact h1 op h
  rcases List.mem_append.1 h with h | h
  · exact h2 op h
  rcases List.mem_append.1 h with h | h
  · exact h3 op h
  · exact h4 op h

/-- Every operation touches TensorCore references only. -/
theorem opsR_sub : (opsR : List (HloOp τ sig (Elt F))).Forall fun op => op.bufs ⊆ tcRefs τ sig :=
  List.forall_iff_forall_mem.2 (forall_mem_opsR (List.forall_iff_forall_mem.1 opsR0_sub) (List.forall_iff_forall_mem.1 opsR1_sub)
    (List.forall_iff_forall_mem.1 opsR2_sub) (List.forall_iff_forall_mem.1 opsR3_sub) (List.forall_iff_forall_mem.1 opsR4_sub))

/-- Every operation determines its results. -/
theorem opsR0_fresh : ∀ op ∈ (opsR0 : List (HloOp τ sig (Elt F))), op.fresh = ∅ := by
  intro _ h; (repeat (cases h with | head => rfl | tail _ h => ?_)); exact nomatch h
theorem opsR1_fresh : ∀ op ∈ (opsR1 : List (HloOp τ sig (Elt F))), op.fresh = ∅ := by
  intro _ h; (repeat (cases h with | head => rfl | tail _ h => ?_)); exact nomatch h
theorem opsR2_fresh : ∀ op ∈ (opsR2 : List (HloOp τ sig (Elt F))), op.fresh = ∅ := by
  intro _ h; (repeat (cases h with | head => rfl | tail _ h => ?_)); exact nomatch h
theorem opsR3_fresh : ∀ op ∈ (opsR3 : List (HloOp τ sig (Elt F))), op.fresh = ∅ := by
  intro _ h; (repeat (cases h with | head => rfl | tail _ h => ?_)); exact nomatch h
theorem opsR4_fresh : ∀ op ∈ (opsR4 : List (HloOp τ sig (Elt F))), op.fresh = ∅ := by
  intro _ h; (repeat (cases h with | head => rfl | tail _ h => ?_)); exact nomatch h

theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after opsR (launchContents m d) (Proc.devRef .tc b) :=
  run_seq scopedRefs_eq scopedSems_eq defs main (fun _ => opsR) main_eq (fun _ => opsR_sub) m ρ
    (fun _ => forall_mem_opsR opsR0_fresh opsR1_fresh opsR2_fresh opsR3_fresh opsR4_fresh)

/-! ## The arguments are kept -/

/-- No operation of a stretch writes an argument: each writes its own result reference, which is another. -/
theorem opsR0_keeps (a : Ref sig .tc) (ha : a = main_arg0 ∨ a = main_arg1 ∨ a = main_arg2) :
    ∀ op ∈ (opsR0 : List (HloOp τ sig (Elt F))), Proc.devRef (τ := τ) .tc a ∉ op.writes := by
  rcases ha with rfl | rfl | rfl <;>
    (refine List.forall_iff_forall_mem.mp ?_
     simp only [List.Forall, nullary_writes, unary_writes, binary_writes, ternary_writes, reshape_writes, Finset.mem_singleton]
     repeat' apply And.intro
     all_goals exact devRef_ne_of_ne (by decide))
theorem opsR1_keeps (a : Ref sig .tc) (ha : a = main_arg0 ∨ a = main_arg1 ∨ a = main_arg2) :
    ∀ op ∈ (opsR1 : List (HloOp τ sig (Elt F))), Proc.devRef (τ := τ) .tc a ∉ op.writes := by
  rcases ha with rfl | rfl | rfl <;>
    (refine List.forall_iff_forall_mem.mp ?_
     simp only [List.Forall, nullary_writes, unary_writes, binary_writes, ternary_writes, reshape_writes, Finset.mem_singleton]
     repeat' apply And.intro
     all_goals exact devRef_ne_of_ne (by decide))
theorem opsR2_keeps (a : Ref sig .tc) (ha : a = main_arg0 ∨ a = main_arg1 ∨ a = main_arg2) :
    ∀ op ∈ (opsR2 : List (HloOp τ sig (Elt F))), Proc.devRef (τ := τ) .tc a ∉ op.writes := by
  rcases ha with rfl | rfl | rfl <;>
    (refine List.forall_iff_forall_mem.mp ?_
     simp only [List.Forall, nullary_writes, unary_writes, binary_writes, ternary_writes, reshape_writes, Finset.mem_singleton]
     repeat' apply And.intro
     all_goals exact devRef_ne_of_ne (by decide))
theorem opsR3_keeps (a : Ref sig .tc) (ha : a = main_arg0 ∨ a = main_arg1 ∨ a = main_arg2) :
    ∀ op ∈ (opsR3 : List (HloOp τ sig (Elt F))), Proc.devRef (τ := τ) .tc a ∉ op.writes := by
  rcases ha with rfl | rfl | rfl <;>
    (refine List.forall_iff_forall_mem.mp ?_
     simp only [List.Forall, nullary_writes, unary_writes, binary_writes, ternary_writes, reshape_writes, Finset.mem_singleton]
     repeat' apply And.intro
     all_goals exact devRef_ne_of_ne (by decide))
theorem opsR4_keeps (a : Ref sig .tc) (ha : a = main_arg0 ∨ a = main_arg1 ∨ a = main_arg2) :
    ∀ op ∈ (opsR4 : List (HloOp τ sig (Elt F))), Proc.devRef (τ := τ) .tc a ∉ op.writes := by
  rcases ha with rfl | rfl | rfl <;>
    (refine List.forall_iff_forall_mem.mp ?_
     simp only [List.Forall, nullary_writes, unary_writes, binary_writes, ternary_writes, reshape_writes, Finset.mem_singleton]
     repeat' apply And.intro
     all_goals exact devRef_ne_of_ne (by decide))

/-- An argument's buffer holds its launch contents after the whole line. -/
theorem kept_of (a : Ref sig .tc) (ha : a = main_arg0 ∨ a = main_arg1 ∨ a = main_arg2)
    (m : (ℓ : Loc nD τ sig) → Buf (Elt F) ℓ) (d : Dev nD) :
    after opsR (launchContents m d) (Proc.devRef .tc a) = m ((d.tc : Thread nD τ).loc a) :=
  after_of_forall_not_mem (b := Proc.devRef .tc a) opsR (launchContents m d)
    (forall_mem_opsR (opsR0_keeps a ha) (opsR1_keeps a ha) (opsR2_keeps a ha) (opsR3_keeps a ha) (opsR4_keeps a ha))

/-- No operation writes an argument. -/
theorem kept_arg0 (m : (ℓ : Loc nD τ sig) → Buf (Elt F) ℓ) (d : Dev nD) :
    after opsR (launchContents m d) (Proc.devRef .tc main_arg0) = m ((d.tc : Thread nD τ).loc main_arg0) :=
  kept_of main_arg0 (.inl rfl) m d
theorem kept_arg1 (m : (ℓ : Loc nD τ sig) → Buf (Elt F) ℓ) (d : Dev nD) :
    after opsR (launchContents m d) (Proc.devRef .tc main_arg1) = m ((d.tc : Thread nD τ).loc main_arg1) :=
  kept_of main_arg1 (.inr (.inl rfl)) m d
theorem kept_arg2 (m : (ℓ : Loc nD τ sig) → Buf (Elt F) ℓ) (d : Dev nD) :
    after opsR (launchContents m d) (Proc.devRef .tc main_arg2) = m ((d.tc : Thread nD τ).loc main_arg2) :=
  kept_of main_arg2 (.inr (.inr rfl)) m d

end Cert.ReferenceIdeal.Hand

end
-- ==== Proof.Ref.Neg.lean ====
/-
  The reference's similarity matrix on the extended reals: exp of (X · Xᵀ) divided by the temperature, entry by
  entry, is the specification's matrix (the transposed operand read at (k, j) is X j k, the host's product is the
  plain sum, and dividing by the nonzero real temperature is multiplying by its reciprocal).
-/
import proofs.«410178_j10892037063160_1_alg».proof.Proof.Gen.ReferenceIdeal
import proofs.«410178_j10892037063160_1_alg».proof.Proof.Spec
import Idealize.ShloMosaic.PureOps.Ideal.Laws
import Idealize.ShloMosaic.Lib.ValueIdx
import Idealize.ShloMosaic.Lib.Pipeline.Value

noncomputable section

namespace Cert.ReferenceIdeal.Hand

open Cert.ReferenceIdeal Cert.ReferenceIdeal.Gen
open Idealize.ShloMosaic Idealize.ShloMosaic.ValueIdx

/-! ## The temperature -/

/-- The single-precision word `0x3D4CCCCD` (sign 0, exponent field `0x7A`, fraction `0x4CCCCD`) denotes
    `2⁻⁵ · (1 + 0x4CCCCD / 2²³) = 13421773 / 2²⁸`, the format's nearest value to `0.05`. -/
theorem ofBits_temperature :
    Ideal.ofBits .f32 0x3D4CCCCD#32 = ((13421773 / 268435456 : ℝ) : EReal) := by
  simp [Ideal.ofBits, Ideal.ieee, -EReal.coe_mul]; norm_num

/-- Dividing by the temperature is multiplying by its reciprocal `2²⁸ / 13421773`: exp of the quotient of a matrix by
    the temperature's splat, read at an index, is exp of the entry times the reciprocal. -/
theorem exp_div_temperature_apply (P : FVec Ideal S8192x8192 .f32) (idx : S8192x8192.Idx) :
    Host.exp (F := Ideal) (Host.divf (F := Ideal) P
      (broadcastInDim S8192x8192 ![] bcast_S_S8192x8192 (constant (F := Ideal) S_ .f32 0x3D4CCCCD#32))) idx
      = Ideal.exp (P idx * Cert.Spec.invTemp) := by
  show Ideal.exp (Ideal.div (P idx) (Ideal.ofBits .f32 0x3D4CCCCD#32)) = _
  rw [ofBits_temperature, Ideal.div_coe (by norm_num : (13421773 / 268435456 : ℝ) ≠ 0)]
  rw [show (1 / (13421773 / 268435456) : ℝ) = 268435456 / 13421773 by norm_num]
  rfl

/-! ## The product's operand indices, coordinate by coordinate

The dimension numbers contract the left operand's axis 1 with the right operand's axis 0; the left operand's axis 0
and the right operand's axis 1 are the result's two axes. -/

/-- The left operand's row is the result's row. -/
theorem lhs_axis0 (j : S8192x8192.Idx) (k : dot_S8192x256_S256x8192_S8192x8192_1_0_0_1_n_n.contr.Idx) :
    ((dot_S8192x256_S256x8192_S8192x8192_1_0_0_1_n_n.lhsIdx j k) 0 : ℕ) = (j 0).val := by
  simp [DotDims.lhsIdx, dot_S8192x256_S256x8192_S8192x8192_1_0_0_1_n_n]; rfl

/-- The left operand's column is the contraction position. -/
theorem lhs_axis1 (j : S8192x8192.Idx) (k : dot_S8192x256_S256x8192_S8192x8192_1_0_0_1_n_n.contr.Idx) :
    ((dot_S8192x256_S256x8192_S8192x8192_1_0_0_1_n_n.lhsIdx j k) 1 : ℕ) = (k ⟨0, by decide⟩).val :=
  dot_S8192x256_S256x8192_S8192x8192_1_0_0_1_n_n.lhsIdx_val_of_single rfl j k

/-- The right operand's row is the contraction position. -/
theorem rhs_axis0 (j : S8192x8192.Idx) (k : dot_S8192x256_S256x8192_S8192x8192_1_0_0_1_n_n.contr.Idx) :
    ((dot_S8192x256_S256x8192_S8192x8192_1_0_0_1_n_n.rhsIdx j k) 0 : ℕ) = (k ⟨0, by decide⟩).val :=
  dot_S8192x256_S256x8192_S8192x8192_1_0_0_1_n_n.rhsIdx_val_of_single rfl j k

/-- The right operand's column is the result's column. -/
theorem rhs_axis1 (j : S8192x8192.Idx) (k : dot_S8192x256_S256x8192_S8192x8192_1_0_0_1_n_n.contr.Idx) :
    ((dot_S8192x256_S256x8192_S8192x8192_1_0_0_1_n_n.rhsIdx j k) 1 : ℕ) = (j 1).val := by
  simp [DotDims.rhsIdx, dot_S8192x256_S256x8192_S8192x8192_1_0_0_1_n_n]; rfl

/-- At result entry `(i, j)` and contraction position `k` the left operand is read at `(i, k)`. -/
theorem lhsIdx_ix2 (i j : Fin 8192) (k : Fin 256) :
    dot_S8192x256_S256x8192_S8192x8192_1_0_0_1_n_n.lhsIdx (ix2 i j)
      ((contrEquiv1 dot_S8192x256_S256x8192_S8192x8192_1_0_0_1_n_n 256 rfl rfl).symm k) = ix2 i k := by
  funext a
  match a with
  | ⟨0, _⟩ => exact Fin.ext (lhs_axis0 _ _)
  | ⟨1, _⟩ => exact Fin.ext ((lhs_axis1 _ _).trans (contrEquiv1_symm_val _ _ _ _ k))

/-- At result entry `(i, j)` and contraction position `k` the right operand is read at `(k, j)`. -/
theorem rhsIdx_ix2 (i j : Fin 8192) (k : Fin 256) :
    dot_S8192x256_S256x8192_S8192x8192_1_0_0_1_n_n.rhsIdx (ix2 i j)
      ((contrEquiv1 dot_S8192x256_S256x8192_S8192x8192_1_0_0_1_n_n 256 rfl rfl).symm k) = ix2 k j := by
  funext a
  match a with
  | ⟨0, _⟩ => exact Fin.ext ((rhs_axis0 _ _).trans (contrEquiv1_symm_val _ _ _ _ k))
  | ⟨1, _⟩ => exact Fin.ext (rhs_axis1 _ _)

/-! ## The product and the transposed operand at an index -/

/-- The host's product of a `[8192, 256]` by a `[256, 8192]` matrix at `(i, j)` is the plain sum over the 256
    contraction positions. -/
theorem dotGeneral_ix2 (A : FVec Ideal S8192x256 .f32) (B : FVec Ideal S256x8192 .f32) (i j : Fin 8192) :
    Host.dotGeneral (F := Ideal) dot_S8192x256_S256x8192_S8192x8192_1_0_0_1_n_n none A B (ix2 i j)
      = ∑ k : Fin 256, A (ix2 i k) * B (ix2 k j) := by
  simp only [Host.dotGeneral]
  refine (Ideal.dotGeneral_apply _ _ _ _ _ _).trans ?_
  refine (Equiv.sum_comp (contrEquiv1 dot_S8192x256_S256x8192_S8192x8192_1_0_0_1_n_n 256 rfl rfl).symm _).symm.trans ?_
  refine Finset.sum_congr rfl fun k _ => ?_
  rw [lhsIdx_ix2, rhsIdx_ix2]

/-- The transposed operand read at `(k, j)` is the operand at `(j, k)`. -/
theorem transpose_ix2 (X : FVec Ideal S8192x256 .f32) (k : Fin 256) (j : Fin 8192) :
    transpose S256x8192 [1, 0] X transposes_S8192x256_S256x8192_1_0 (ix2 k j) = X (ix2 j k) :=
  transpose_apply _ _ _ _ _ (fun b => by match b with | ⟨0, _⟩ => rfl | ⟨1, _⟩ => rfl)

/-! ## The matrix -/

theorem negR_eq (X : FVec Ideal S8192x256 .f32) :
    (Host.exp (Host.divf (Host.dotGeneral dot_S8192x256_S256x8192_S8192x8192_1_0_0_1_n_n none X
        (transpose S256x8192 [1, 0] X transposes_S8192x256_S256x8192_1_0))
        (broadcastInDim S8192x8192 ![] bcast_S_S8192x8192 (constant (F := Ideal) S_ .f32 0x3D4CCCCD#32))) : S8192x8192.Idx → EReal)
      = Cert.Spec.neg (X : S8192x256.Idx → EReal) := by
  funext idx
  obtain ⟨i, j, rfl⟩ : ∃ (i j : Fin 8192), idx = ix2 i j := ⟨idx 0, idx 1, eq_ix2 idx⟩
  refine (exp_div_temperature_apply _ _).trans ?_
  show _ = Ideal.exp ((∑ k : Fin 256, X (ix2 i k) * X (ix2 j k)) * Cert.Spec.invTemp)
  rw [dotGeneral_ix2]
  refine congrArg (fun s => Ideal.exp (s * Cert.Spec.invTemp)) (Finset.sum_congr rfl fun k _ => ?_)
  rw [transpose_ix2]

end Cert.ReferenceIdeal.Hand

end
-- ==== Proof.Tail.lean ====
/-
  The two programs end at the same loss: after the similarity matrix both apply the same operations — the
  hard-negative columns from the index input, the gather, the row sums, the logarithm of the ratio, the mean — to equal
  values.
-/
import proofs.«410178_j10892037063160_1_alg».proof.Proof.KI.Run
import proofs.«410178_j10892037063160_1_alg».proof.Proof.Ref.Run
import proofs.«410178_j10892037063160_1_alg».proof.Proof.Ref.Neg
import proofs.«410178_j10892037063160_1_alg».proof.Proof.Spec

noncomputable section

namespace Cert.Proof.Tail

open Idealize.ShloMosaic Idealize.ShloMosaic.TcCoe Idealize.SL.Sem

/-! ## Typed references at literal buffers: the transports are the identity -/

section Casts

variable {sig : RefSig} {Val : EltTy → Type} {T : BufTy}

/-- Contents moved to a typed reference's buffer and back are unchanged. -/
theorem ofBuf_toBuf (x : StableHlo.TRef sig T) (v : T.Contents Val) : x.ofBuf (x.toBuf v) = v := by
  obtain ⟨r, h, h2, h3⟩ := x
  subst h
  rfl

end Casts

/-! The kernel program's buffers read or written through typed references across a stretch's boundary, and the
    two sides of its one reshape: at each the transport is the identity (the buffer's type computes to the value's). -/
section KernelRefs
open Cert.KernelIdeal
variable {Val : EltTy → Type}
theorem k_in_c (w : main_c.ty.Contents Val) : (StableHlo.TRef.of main_c : StableHlo.TRef sig ⟨S_, .i32⟩).ofBuf w = w := rfl
theorem k_in_v8 (w : main_v8.ty.Contents Val) : (StableHlo.TRef.of main_v8 : StableHlo.TRef sig ⟨S8192, .i32⟩).ofBuf w = w := rfl
theorem k_out_v9 (w : (⟨S8192, .i32⟩ : BufTy).Contents Val) : (StableHlo.TRef.of main_v9 : StableHlo.TRef sig ⟨S8192, .i32⟩).toBuf w = w := rfl
theorem k_in_v24 (w : main_v24.ty.Contents Val) : (StableHlo.TRef.of main_v24 : StableHlo.TRef sig ⟨S8192x128, .i32⟩).ofBuf w = w := rfl
theorem k_in_v7 (w : main_v7.ty.Contents Val) : (StableHlo.TRef.of main_v7 : StableHlo.TRef sig ⟨S8192x8192, .f32⟩).ofBuf w = w := rfl
theorem k_out_v25 (w : (⟨S8192x128, .f32⟩ : BufTy).Contents Val) : (StableHlo.TRef.of main_v25 : StableHlo.TRef sig ⟨S8192x128, .f32⟩).toBuf w = w := rfl
theorem k_rs_v4 (w : (⟨S8192x128, .i32⟩ : BufTy).Contents Val) : (StableHlo.TRef.of main_call1_v4 : StableHlo.TRef sig ⟨S8192x128, .i32⟩).toBuf w = w := rfl
theorem k_rs_v5 (w : main_call1_v5.ty.Contents Val) : (StableHlo.TRef.of main_call1_v5 : StableHlo.TRef sig ⟨S8192x128x1, .i32⟩).ofBuf w = w := rfl
end KernelRefs

/-! The same for the reference program's buffers. -/
section ReferenceRefs
open Cert.ReferenceIdeal
variable {Val : EltTy → Type}
theorem r_in_c (w : main_c.ty.Contents Val) : (StableHlo.TRef.of main_c : StableHlo.TRef sig ⟨S_, .i32⟩).ofBuf w = w := rfl
theorem r_in_v12 (w : main_v12.ty.Contents Val) : (StableHlo.TRef.of main_v12 : StableHlo.TRef sig ⟨S8192, .i32⟩).ofBuf w = w := rfl
theorem r_out_v13 (w : (⟨S8192, .i32⟩ : BufTy).Contents Val) : (StableHlo.TRef.of main_v13 : StableHlo.TRef sig ⟨S8192, .i32⟩).toBuf w = w := rfl
theorem r_in_v28 (w : main_v28.ty.Contents Val) : (StableHlo.TRef.of main_v28 : StableHlo.TRef sig ⟨S8192x128, .i32⟩).ofBuf w = w := rfl
theorem r_in_v11 (w : main_v11.ty.Contents Val) : (StableHlo.TRef.of main_v11 : StableHlo.TRef sig ⟨S8192x8192, .f32⟩).ofBuf w = w := rfl
theorem r_out_v29 (w : (⟨S8192x128, .f32⟩ : BufTy).Contents Val) : (StableHlo.TRef.of main_v29 : StableHlo.TRef sig ⟨S8192x128, .f32⟩).toBuf w = w := rfl
theorem r_rs_v4 (w : (⟨S8192x128, .i32⟩ : BufTy).Contents Val) : (StableHlo.TRef.of main_call1_v4 : StableHlo.TRef sig ⟨S8192x128, .i32⟩).toBuf w = w := rfl
theorem r_rs_v5 (w : main_call1_v5.ty.Contents Val) : (StableHlo.TRef.of main_call1_v5 : StableHlo.TRef sig ⟨S8192x128x1, .i32⟩).ofBuf w = w := rfl
end ReferenceRefs

/-! ## The operations both programs apply after the similarity matrix, as functions of the values they read -/

section Shared

open Cert.KernelIdeal Cert.KernelIdeal.Gen

variable {F : FTy → Type} [FloatOps F]

/-- The positive-pair weights: exp of the row-wise inner products of the two halves over the temperature, once
    for each half of the rows. -/
def posOf (a0 a1 : FVec F S4096x256 .f32) : FVec F S8192 .f32 :=
  let e : FVec F S4096 .f32 :=
    Host.exp (Host.divf (Host.reduceAdd (mulf a0 a1) (constant S_ .f32 0x00000000#32) reducesTo_S4096x256_S4096_d1 h_S_)
      (broadcastInDim S4096 ![] bcast_S_S4096 (constant S_ .f32 0x3D4CCCCD#32)))
  concatenate S8192 0 [⟨S4096, e⟩, ⟨S4096, e⟩] concatenates_S4096_S4096_S8192_d0

/-- The features: the two halves one above the other. -/
def featOf (a0 a1 : FVec F S4096x256 .f32) : FVec F S8192x256 .f32 :=
  concatenate S8192x256 0 [⟨S4096x256, a0⟩, ⟨S4096x256, a1⟩] concatenates_S4096x256_S4096x256_S8192x256_d0

/-- The row numbers reduced modulo the divisor `d` (a divisor 0 read as 1), with the sign of the divisor: the
    truncated remainder, moved by `d` where it is nonzero and its sign differs from the divisor's. -/
def modOf (rows : IVec S8192 32) (d : IVec S_ 32) : IVec S8192 32 :=
  let d' : IVec S_ 32 := select (cmpi .eq (id d) (constantI S_ 32 0#32)) (constantI S_ 32 1#32) (id d)
  let r : IVec S8192 32 := Host.remsi rows (broadcastInDim S8192 ![] bcast_S_S8192 d')
  select
    (andi
      (cmpi .ne (cmpi .slt r (broadcastInDim S8192 ![] bcast_S_S8192 (constantI S_ 32 0#32)))
        (broadcastInDim S8192 ![] bcast_S_S8192 (cmpi .slt d' (constantI S_ 32 0#32))))
      (cmpi .ne r (broadcastInDim S8192 ![] bcast_S_S8192 (constantI S_ 32 0#32))))
    (addi r (broadcastInDim S8192 ![] bcast_S_S8192 d')) r

/-- The 128 hard-negative columns of each row: with `r` the row's number in its half (made non-negative), the 64
    indices the input lists for `r`, each moved up by one from `r` on (the row's own column is skipped), and the
    same 64 again in the other half. -/
def colsOf (r : IVec S8192 32) (idx : IVec S4096x64 32) : IVec S8192x128 32 :=
  let r' : IVec S8192 32 :=
    select (cmpi .slt r (broadcastInDim S8192 ![] bcast_S_S8192 (constantI S_ 32 0#32)))
      (addi r (broadcastInDim S8192 ![] bcast_S_S8192 (constantI S_ 32 4096#32))) r
  let g : IVec S8192x64 32 :=
    Host.gather gather_S4096x64_S8192x1_S8192x64_1_0_n_n_0_1_164 idx (broadcastInDim S8192x1 ![0] bcast_S8192_S8192x1_0 r')
  let k : IVec S8192x64 32 :=
    addi g (extui 32 (cmpi .sge g
      (broadcastInDim S8192x64 ![0, 1] bcast_S8192x1_S8192x64_0_1 (broadcastInDim S8192x1 ![0] bcast_S8192_S8192x1_0 r))) natLt_1_32)
  concatenate S8192x128 1
    [⟨S8192x64, k⟩, ⟨S8192x64, addi k (broadcastInDim S8192x64 ![] bcast_S_S8192x64 (constantI S_ 32 4096#32))⟩]
    concatenates_S8192x64_S8192x64_S8192x128_d1

/-- The matrix's entries at each row's listed columns (a negative column counted from the end; a column out of
    range gives the not-a-number fill). -/
def takeOf (neg : FVec F S8192x8192 .f32) (cols : IVec S8192x128 32) : FVec F S8192x128 .f32 :=
  let j : IVec S8192x128x1 32 :=
    shapeCast S8192x128x1
      (select (cmpi .slt cols (broadcastInDim S8192x128 ![] bcast_S_S8192x128 (constantI S_ 32 0#32)))
        (addi cols (broadcastInDim S8192x128 ![] bcast_S_S8192x128 (constantI S_ 32 8192#32))) cols)
      shapeCasts_S8192x128_S8192x128x1
  select
    (Host.reduce IntOp.andi
      (andi (cmpi .sge j (broadcastInDim S8192x128x1 ![] bcast_S_S8192x128x1 (constantI S_ 32 0#32)))
        (cmpi .sle j (broadcastInDim S8192x128x1 ![0, 1, 2] bcast_S1x1x1_S8192x128x1_0_1_2
          (broadcastInDim S1x1x1 ![2] bcast_S1_S1x1x1_2 (constantI S1 32 8191#32)))))
      (constantI S_ 1 1#1) reducesTo_S8192x128x1_S8192x128_d2 h_S_)
    (Host.gather gather_S8192x8192_S8192x128x1_S8192x128_n_1_0_0_1_2_11 neg j)
    (broadcastInDim S8192x128 ![] bcast_S_S8192x128 (constant S_ .f32 0x7FC00000#32))

/-- The loss: the mean over the rows of minus the logarithm of the positive weight over the sum of it and the
    row's hard negatives. -/
def lossOf (g : FVec F S8192x128 .f32) (pos : FVec F S8192 .f32) : FVec F S_ .f32 :=
  Host.divf
    (Host.reduceAdd
      (Host.negf (Host.log (Host.divf pos
        (addf (Host.reduceAdd g (constant S_ .f32 0x00000000#32) reducesTo_S8192x128_S8192_d1 h_S_) pos))))
      (constant S_ .f32 0x00000000#32) reducesTo_S8192_S_d0 h_S_)
    (constant S_ .f32 0x46000000#32)

/-- All of it, from the matrix, the positive weights and the index input. -/
def tailOf (neg : FVec F S8192x8192 .f32) (pos : FVec F S8192 .f32) (idx : IVec S4096x64 32) : FVec F S_ .f32 :=
  lossOf (takeOf neg (colsOf (modOf (iotaInDim S8192 32 0) (constantI S_ 32 4096#32)) idx)) pos

end Shared

/-! ## The kernel program's host operations, stretch by stretch, over any contents -/

section Kernel

open Cert.KernelIdeal Cert.KernelIdeal.Gen Idealize.ShloMosaic.StableHlo

variable {F : FTy → Type} [FloatOps F]

/-! Before the region: the positive weights and the features from the two arguments; the index input untouched. -/

theorem kpre_v5 (V : Valuation τ sig (Elt F)) :
    after hostOps0 V (Proc.devRef .tc main_v5) = posOf (V (Proc.devRef .tc main_arg0)) (V (Proc.devRef .tc main_arg1)) := by
  after_results
  rfl

theorem kpre_v6 (V : Valuation τ sig (Elt F)) :
    after hostOps0 V (Proc.devRef .tc main_v6) = featOf (V (Proc.devRef .tc main_arg0)) (V (Proc.devRef .tc main_arg1)) := by
  after_results
  rfl

theorem kpre_arg2 (V : Valuation τ sig (Elt F)) :
    after hostOps0 V (Proc.devRef .tc main_arg2) = V (Proc.devRef .tc main_arg2) := by
  after_results

/-! The row numbers and the divisor. -/

theorem k0_v8 (V : Valuation τ sig (Elt F)) : after hostOps1 V (Proc.devRef .tc main_v8) = iotaInDim S8192 32 0 := by
  after_results
theorem k0_c (V : Valuation τ sig (Elt F)) : after hostOps1 V (Proc.devRef .tc main_c) = constantI S_ 32 4096#32 := by
  after_results
theorem k0_v7 (V : Valuation τ sig (Elt F)) : after hostOps1 V (Proc.devRef .tc main_v7) = V (Proc.devRef .tc main_v7) := by
  after_results
theorem k0_v5 (V : Valuation τ sig (Elt F)) : after hostOps1 V (Proc.devRef .tc main_v5) = V (Proc.devRef .tc main_v5) := by
  after_results
theorem k0_arg2 (V : Valuation τ sig (Elt F)) : after hostOps1 V (Proc.devRef .tc main_arg2) = V (Proc.devRef .tc main_arg2) := by
  after_results

/-! The remainder. -/

set_option maxRecDepth 8192 in
theorem k1_out (V : Valuation τ sig (Elt F)) :
    after hostOps1_1 V (Proc.devRef .tc main_v9) = modOf (V (Proc.devRef .tc main_v8)) (V (Proc.devRef .tc main_c)) := by
  after_results_simp
  simp only [ofBuf_toBuf, k_in_c, k_in_v8, k_out_v9]
  rfl
set_option maxRecDepth 8192 in
theorem k1_v7 (V : Valuation τ sig (Elt F)) : after hostOps1_1 V (Proc.devRef .tc main_v7) = V (Proc.devRef .tc main_v7) := by
  after_results_simp
set_option maxRecDepth 8192 in
theorem k1_v5 (V : Valuation τ sig (Elt F)) : after hostOps1_1 V (Proc.devRef .tc main_v5) = V (Proc.devRef .tc main_v5) := by
  after_results_simp
set_option maxRecDepth 8192 in
theorem k1_arg2 (V : Valuation τ sig (Elt F)) : after hostOps1_1 V (Proc.devRef .tc main_arg2) = V (Proc.devRef .tc main_arg2) := by
  after_results_simp

/-! The hard-negative columns. -/

set_option maxRecDepth 8192 in
set_option maxHeartbeats 1000000 in
theorem k2_out (V : Valuation τ sig (Elt F)) :
    after hostOps1_2 V (Proc.devRef .tc main_v24) = colsOf (V (Proc.devRef .tc main_v9)) (V (Proc.devRef .tc main_arg2)) := by
  after_results
  rfl
set_option maxRecDepth 8192 in
theorem k2_v7 (V : Valuation τ sig (Elt F)) : after hostOps1_2 V (Proc.devRef .tc main_v7) = V (Proc.devRef .tc main_v7) := by
  after_results_simp
set_option maxRecDepth 8192 in
theorem k2_v5 (V : Valuation τ sig (Elt F)) : after hostOps1_2 V (Proc.devRef .tc main_v5) = V (Proc.devRef .tc main_v5) := by
  after_results_simp

/-! The matrix's entries at those columns. -/

set_option maxRecDepth 8192 in
theorem k3_out (V : Valuation τ sig (Elt F)) :
    after hostOps1_3 V (Proc.devRef .tc main_v25) = takeOf (V (Proc.devRef .tc main_v7)) (V (Proc.devRef .tc main_v24)) := by
  after_results_simp
  simp only [ofBuf_toBuf, k_in_v24, k_in_v7, k_out_v25, k_rs_v4, k_rs_v5]
  rfl
set_option maxRecDepth 8192 in
theorem k3_v5 (V : Valuation τ sig (Elt F)) : after hostOps1_3 V (Proc.devRef .tc main_v5) = V (Proc.devRef .tc main_v5) := by
  after_results_simp

/-! The loss. -/

theorem k4_out (V : Valuation τ sig (Elt F)) :
    after hostOps1_4 V (Proc.devRef .tc main_v32) = lossOf (V (Proc.devRef .tc main_v25)) (V (Proc.devRef .tc main_v5)) := by
  after_results
  rfl

/-- The operations after the region, from any contents: the loss of the matrix found in the result array, the
    positive weights and the index input. -/
theorem kernel_tail (V : Valuation τ sig (Elt F)) :
    after (hostOps1 ++ (hostOps1_1 ++ (hostOps1_2 ++ (hostOps1_3 ++ hostOps1_4)))) V (Proc.devRef .tc main_v32)
      = tailOf (V (Proc.devRef .tc main_v7)) (V (Proc.devRef .tc main_v5)) (V (Proc.devRef .tc main_arg2)) := by
  rw [after_append, after_append, after_append, after_append]
  rw [k4_out, k3_out, k3_v5, k2_out, k2_v7, k2_v5, k1_out, k1_v7, k1_v5, k1_arg2, k0_v8, k0_c, k0_v7, k0_v5, k0_arg2]
  rfl

end Kernel

/-! ## The reference program's operations, stretch by stretch, over any contents -/

section Reference

open Cert.ReferenceIdeal Cert.ReferenceIdeal.Gen Cert.ReferenceIdeal.Hand Idealize.ShloMosaic.StableHlo

variable {F : FTy → Type} [FloatOps F]

/-- The reference's similarity matrix as its operations spell it: exp of the features' product with their
    transpose over the temperature. -/
def negR (X : FVec F S8192x256 .f32) : FVec F S8192x8192 .f32 :=
  Host.exp (Host.divf (Host.dotGeneral dot_S8192x256_S256x8192_S8192x8192_1_0_0_1_n_n none X
      (transpose S256x8192 [1, 0] X transposes_S8192x256_S256x8192_1_0))
    (broadcastInDim S8192x8192 ![] bcast_S_S8192x8192 (constant S_ .f32 0x3D4CCCCD#32)))

/-! The first stretch: the positive weights, the matrix, the row numbers and the divisor; the index input untouched. -/

set_option maxRecDepth 8192 in
theorem r0_v5 (V : Valuation τ sig (Elt F)) :
    after opsR0 V (Proc.devRef .tc main_v5) = posOf (V (Proc.devRef .tc main_arg0)) (V (Proc.devRef .tc main_arg1)) := by
  after_results
  rfl
set_option maxRecDepth 8192 in
theorem r0_v11 (V : Valuation τ sig (Elt F)) :
    after opsR0 V (Proc.devRef .tc main_v11) = negR (featOf (V (Proc.devRef .tc main_arg0)) (V (Proc.devRef .tc main_arg1))) := by
  after_results
  rfl
set_option maxRecDepth 8192 in
theorem r0_v12 (V : Valuation τ sig (Elt F)) : after opsR0 V (Proc.devRef .tc main_v12) = iotaInDim S8192 32 0 := by
  after_results
set_option maxRecDepth 8192 in
theorem r0_c (V : Valuation τ sig (Elt F)) : after opsR0 V (Proc.devRef .tc main_c) = constantI S_ 32 4096#32 := by
  after_results
set_option maxRecDepth 8192 in
theorem r0_arg2 (V : Valuation τ sig (Elt F)) : after opsR0 V (Proc.devRef .tc main_arg2) = V (Proc.devRef .tc main_arg2) := by
  after_results_simp

/-! The remainder. -/

set_option maxRecDepth 8192 in
theorem r1_out (V : Valuation τ sig (Elt F)) :
    after opsR1 V (Proc.devRef .tc main_v13) = modOf (V (Proc.devRef .tc main_v12)) (V (Proc.devRef .tc main_c)) := by
  after_results_simp
  simp only [ofBuf_toBuf, r_in_c, r_in_v12, r_out_v13]
  rfl
set_option maxRecDepth 8192 in
theorem r1_v11 (V : Valuation τ sig (Elt F)) : after opsR1 V (Proc.devRef .tc main_v11) = V (Proc.devRef .tc main_v11) := by
  after_results_simp
set_option maxRecDepth 8192 in
theorem r1_v5 (V : Valuation τ sig (Elt F)) : after opsR1 V (Proc.devRef .tc main_v5) = V (Proc.devRef .tc main_v5) := by
  after_results_simp
set_option maxRecDepth 8192 in
theorem r1_arg2 (V : Valuation τ sig (Elt F)) : after opsR1 V (Proc.devRef .tc main_arg2) = V (Proc.devRef .tc main_arg2) := by
  after_results_simp

/-! The hard-negative columns. -/

set_option maxRecDepth 8192 in
set_option maxHeartbeats 1000000 in
theorem r2_out (V : Valuation τ sig (Elt F)) :
    after opsR2 V (Proc.devRef .tc main_v28) = colsOf (V (Proc.devRef .tc main_v13)) (V (Proc.devRef .tc main_arg2)) := by
  after_results
  rfl
set_option maxRecDepth 8192 in
theorem r2_v11 (V : Valuation τ sig (Elt F)) : after opsR2 V (Proc.devRef .tc main_v11) = V (Proc.devRef .tc main_v11) := by
  after_results_simp
set_option maxRecDepth 8192 in
theorem r2_v5 (V : Valuation τ sig (Elt F)) : after opsR2 V (Proc.devRef .tc main_v5) = V (Proc.devRef .tc main_v5) := by
  after_results_simp

/-! The matrix's entries at those columns. -/

set_option maxRecDepth 8192 in
theorem r3_out (V : Valuation τ sig (Elt F)) :
    after opsR3 V (Proc.devRef .tc main_v29) = takeOf (V (Proc.devRef .tc main_v11)) (V (Proc.devRef .tc main_v28)) := by
  after_results_simp
  simp only [ofBuf_toBuf, r_in_v28, r_in_v11, r_out_v29, r_rs_v4, r_rs_v5]
  rfl
set_option maxRecDepth 8192 in
theorem r3_v5 (V : Valuation τ sig (Elt F)) : after opsR3 V (Proc.devRef .tc main_v5) = V (Proc.devRef .tc main_v5) := by
  after_results_simp

/-! The loss. -/

theorem r4_out (V : Valuation τ sig (Elt F)) :
    after opsR4 V (Proc.devRef .tc main_v36) = lossOf (V (Proc.devRef .tc main_v29)) (V (Proc.devRef .tc main_v5)) := by
  after_results
  rfl

/-- The reference's result from any contents: the loss of its own matrix of the concatenated arguments, the positive
    weights and the index input. -/
theorem ref_tail (V : Valuation τ sig (Elt F)) :
    after opsR V (Proc.devRef .tc main_v36)
      = tailOf (negR (featOf (V (Proc.devRef .tc main_arg0)) (V (Proc.devRef .tc main_arg1))))
          (posOf (V (Proc.devRef .tc main_arg0)) (V (Proc.devRef .tc main_arg1))) (V (Proc.devRef .tc main_arg2)) := by
  rw [after_append, after_append, after_append, after_append]
  rw [r4_out, r3_out, r3_v5, r2_out, r2_v11, r2_v5, r1_out, r1_v11, r1_v5, r1_arg2, r0_v12, r0_c, r0_v11, r0_v5, r0_arg2]
  rfl

end Reference

/-! ## The two programs' results -/

section Main

open Idealize.ShloMosaic.StableHlo

/-- The loss as a function of the two feature halves and the index input, the matrix the specification's. -/
def lossSpec (a0 a1 : FVec Ideal Cert.KernelIdeal.S4096x256 .f32) (idx : IVec Cert.KernelIdeal.S4096x64 32) :
    FVec Ideal Cert.KernelIdeal.S_ .f32 :=
  tailOf (F := Ideal) (Cert.Spec.neg (featOf a0 a1)) (posOf a0 a1) idx

/-- From memories agreeing on the three arguments, with the kernel's result array at the specification's matrix of
    the concatenated features, the reference's result is the kernel program's. -/
theorem tail_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (hneg : ((Cert.KernelIdeal.Hand.dats (F := Ideal) m 0 c).arrAt 2 Cert.KernelIdeal.cfg0.N : Cert.KernelIdeal.S8192x8192.Idx → EReal)
      = Cert.Spec.neg (Cert.KernelIdeal.Hand.V m c Cert.KernelIdeal.main_v6 : Cert.KernelIdeal.S8192x256.Idx → EReal)) :
    StableHlo.after (Cert.ReferenceIdeal.Hand.opsR (F := Ideal)) (StableHlo.launchContents m' c) (Proc.devRef .tc Cert.ReferenceIdeal.main_v36)
      = Cert.KernelIdeal.Hand.Vend (F := Ideal) m c (Proc.devRef .tc Cert.KernelIdeal.main_v32) := by
  -- the reference's result, its matrix read as the specification's
  have hR : StableHlo.after (Cert.ReferenceIdeal.Hand.opsR (F := Ideal)) (StableHlo.launchContents m' c) (Proc.devRef .tc Cert.ReferenceIdeal.main_v36)
      = lossSpec (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2)) :=
    (ref_tail (F := Ideal) (StableHlo.launchContents m' c)).trans
      (congrArg (fun N => tailOf (F := Ideal) N _ _) (Cert.ReferenceIdeal.Hand.negR_eq _))
  -- the kernel program's: the result array by the hypothesis, the other two values as the region found them
  have e7 : Cert.KernelIdeal.Hand.V1 (F := Ideal) m c (Proc.devRef .tc Cert.KernelIdeal.main_v7)
      = Cert.Spec.neg (featOf (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1))) :=
    (Cert.KernelIdeal.Hand.V1r_v7 m c).trans (hneg.trans (congrArg Cert.Spec.neg (kpre_v6 (F := Ideal) _)))
  have e5 : Cert.KernelIdeal.Hand.V1 (F := Ideal) m c (Proc.devRef .tc Cert.KernelIdeal.main_v5)
      = posOf (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) :=
    (Cert.KernelIdeal.Hand.V1r_of_ne m c Cert.KernelIdeal.main_v5 (by decide)).trans (kpre_v5 (F := Ideal) _)
  have e2 : Cert.KernelIdeal.Hand.V1 (F := Ideal) m c (Proc.devRef .tc Cert.KernelIdeal.main_arg2)
      = m ((c.tc : Thread Cert.KernelIdeal.nD Cert.KernelIdeal.τ).loc Cert.KernelIdeal.main_arg2) :=
    (Cert.KernelIdeal.Hand.V1r_of_ne m c Cert.KernelIdeal.main_arg2 (by decide)).trans (kpre_arg2 (F := Ideal) _)
  have hK : Cert.KernelIdeal.Hand.Vend (F := Ideal) m c (Proc.devRef .tc Cert.KernelIdeal.main_v32)
      = lossSpec (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
    refine (kernel_tail (F := Ideal) (Cert.KernelIdeal.Hand.V1 m c)).trans ?_
    rw [e7, e5, e2]
    rfl
  rw [hR, hK, h0, h1, h2]

end Main

end Cert.Proof.Tail

end
-- ==== Proof.lean ====
/-
  The certificate of the contrastive-loss kernel against its jnp reference.

  Both programs compute pos = exp (⟨f1 i, f2 i⟩ / T) tiled twice, the similarity matrix N = exp (X · Xᵀ / T) of the
  concatenated features X, pick 128 hard-negative columns per row from the index input, and return the mean of
  −log (pos / (rowsum + pos)). The kernel program computes N tile by tile in a pallas_call as exp (A · Bᵀ · inv_temp),
  the reciprocal of the temperature a named constant; on the extended reals that is the reference's quotient by the
  nonzero real temperature, so the two matrices are equal entry by entry, and every other operation is the same in both.
-/
import proofs.«410178_j10892037063160_1_alg».proof.Defs
import proofs.«410178_j10892037063160_1_alg».proof.Proof.Gen.Kernel
import proofs.«410178_j10892037063160_1_alg».proof.Proof.Gen.KernelIdeal
import proofs.«410178_j10892037063160_1_alg».proof.Proof.Gen.ReferenceIdeal
import proofs.«410178_j10892037063160_1_alg».proof.Proof.Gen.Pre_finite_inputs
import proofs.«410178_j10892037063160_1_alg».proof.Proof.K.Run
import proofs.«410178_j10892037063160_1_alg».proof.Proof.KI.Run
import proofs.«410178_j10892037063160_1_alg».proof.Proof.KI.Value
import proofs.«410178_j10892037063160_1_alg».proof.Proof.Ref.Run
import proofs.«410178_j10892037063160_1_alg».proof.Proof.Tail
import Idealize.ShloMosaic.Adequacy
import Idealize.ShloMosaic.Init

noncomputable section

namespace Cert.Proof

open Idealize.ShloMosaic Idealize.SL.Sem

/-- The kernel program runs and leaves its arguments as they were, at the word-level values. -/
theorem frame_k : Cert.frame_Kernel := fun m ρ _ =>
  (θ_run Cert.Kernel.defs _ _).mono (fun _ h c =>
    ⟨(h c).2.1.trans (Cert.Kernel.Hand.kept_arg0 m c), (h c).2.2.1.trans (Cert.Kernel.Hand.kept_arg1 m c),
      (h c).2.2.2.trans (Cert.Kernel.Hand.kept_arg2 m c)⟩) (Cert.Kernel.Hand.run_main (F := Bits) m ρ)

/-- The same at the extended reals. -/
theorem frame_ki : Cert.frame_KernelIdeal := fun m ρ _ =>
  (θ_run Cert.KernelIdeal.defs _ _).mono (fun _ h c =>
    ⟨(h c).2.1.trans (Cert.KernelIdeal.Hand.kept_arg0 m c), (h c).2.2.1.trans (Cert.KernelIdeal.Hand.kept_arg1 m c),
      (h c).2.2.2.trans (Cert.KernelIdeal.Hand.kept_arg2 m c)⟩) (Cert.KernelIdeal.Hand.run_main (F := Ideal) m ρ)

/-- The reference runs and leaves its arguments as they were. -/
theorem frame_ri : Cert.frame_ReferenceIdeal := fun m ρ _ =>
  (θ_run Cert.ReferenceIdeal.defs _ _).mono (fun _ h c =>
    ⟨(h c Cert.ReferenceIdeal.main_arg0).trans (Cert.ReferenceIdeal.Hand.kept_arg0 m c),
      (h c Cert.ReferenceIdeal.main_arg1).trans (Cert.ReferenceIdeal.Hand.kept_arg1 m c),
      (h c Cert.ReferenceIdeal.main_arg2).trans (Cert.ReferenceIdeal.Hand.kept_arg2 m c)⟩) (Cert.ReferenceIdeal.Hand.run (F := Ideal) m ρ)

/-- The one rewrite of the idealization: the kernel's scale 20.0 is named the reciprocal of the reference's f32
    temperature, 268435456 / 13421773. -/
theorem preserves : Cert.preserves_Kernel_KernelIdeal :=
  IdealRules.named_const.statement Cert.KernelIdeal.κ "inv_temp" .f32 0x41A00000#32 ((268435456 / 13421773 : ℝ) : EReal) rfl

/-- On the extended reals, from memories agreeing on the arguments, both programs end at one loss. -/
theorem algebraic : Cert.algebraic_KernelIdeal_ReferenceIdeal := by
  intro m ρ m' ρ' _ hagree
  refine ⟨fun c => Cert.KernelIdeal.Hand.Vend (F := Ideal) m c (Proc.devRef .tc Cert.KernelIdeal.main_v32), ?_, ?_⟩
  · exact (θ_run Cert.KernelIdeal.defs _ _).mono (fun _ h c =>
      ⟨(h c).1, (h c).2.1.trans (Cert.KernelIdeal.Hand.kept_arg0 m c), (h c).2.2.1.trans (Cert.KernelIdeal.Hand.kept_arg1 m c),
        (h c).2.2.2.trans (Cert.KernelIdeal.Hand.kept_arg2 m c)⟩) (Cert.KernelIdeal.Hand.run_main (F := Ideal) m ρ)
  · exact (θ_run Cert.ReferenceIdeal.defs _ _).mono (fun _ h c =>
      ⟨(h c Cert.ReferenceIdeal.main_v36).trans
          (Cert.Proof.Tail.tail_eq m m' c (hagree c).1 (hagree c).2.1 (hagree c).2.2 (Cert.KernelIdeal.Hand.arr2_eq m c)),
        (h c Cert.ReferenceIdeal.main_arg0).trans (Cert.ReferenceIdeal.Hand.kept_arg0 m' c),
        (h c Cert.ReferenceIdeal.main_arg1).trans (Cert.ReferenceIdeal.Hand.kept_arg1 m' c),
        (h c Cert.ReferenceIdeal.main_arg2).trans (Cert.ReferenceIdeal.Hand.kept_arg2 m' c)⟩) (Cert.ReferenceIdeal.Hand.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
